-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : IVec S1x800000 32 := (extractStridedSlice S1x800000 ![0, 0] · slices_S2x800000_S1x800000_0_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_v48 : IVec S1x800000 32 := (extractStridedSlice S1x800000 ![0, 0] · slices_S2x800000_S1x800000_0_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S128 .f32) (main_arg6 : FVec F S128x128 .f32) (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x1 : Shape := ⟨2, ![50000, 1]⟩
abbrev S5000x1 : Shape := ⟨2, ![5000, 1]⟩
abbrev S50000x16 : Shape := ⟨2, ![50000, 16]⟩
abbrev S5000x16 : Shape := ⟨2, ![5000, 16]⟩
abbrev S800000x16 : Shape := ⟨2, ![800000, 16]⟩
abbrev S1x16 : Shape := ⟨2, ![1, 16]⟩

abbrev nBuf : Space → Nat
  | .hbm => 190
  | .vmem => 56
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .f32⟩
  | 51 => ⟨S50000, .f32⟩
  | 52 => ⟨S50000, .f32⟩
  | 53 => ⟨S50000, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x128, .f32⟩
  | 74 => ⟨S800000x128, .i1⟩
  | 75 => ⟨S_, .f32⟩
  | 76 => ⟨S800000x128, .f32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128, .f32⟩
  | 86 => ⟨S50000x1, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S1, .i32⟩
  | 98 => ⟨S_, .i32⟩
  | 99 => ⟨S800000x1, .i32⟩
  | 100 => ⟨S800000x1, .i1⟩
  | 101 => ⟨S1x1, .i32⟩
  | 102 => ⟨S800000x1, .i32⟩
  | 103 => ⟨S800000x1, .i1⟩
  | 104 => ⟨S800000x1, .i1⟩
  | 105 => ⟨S_, .i1⟩
  | 106 => ⟨S800000, .i1⟩
  | 107 => ⟨S800000x128, .f32⟩
  | 108 => ⟨S800000x128, .i1⟩
  | 109 => ⟨S_, .f32⟩
  | 110 => ⟨S800000x128, .f32⟩
  | 111 => ⟨S800000x128, .f32⟩
  | 112 => ⟨S800000x1, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1x128, .f32⟩
  | 120 => ⟨S50000x1, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S1, .i32⟩
  | 4 => ⟨S_, .i32⟩
  | 5 => ⟨S800000x1, .i32⟩
  | 6 => ⟨S800000x1, .i1⟩
  | 7 => ⟨S1x1, .i32⟩
  | 8 => ⟨S800000x1, .i32⟩
  | 9 => ⟨S800000x1, .i1⟩
  | 10 => ⟨S800000x1, .i1⟩
  | 11 => ⟨S_, .i1⟩
  | 12 => ⟨S800000, .i1⟩
  | 13 => ⟨S800000x128, .f32⟩
  | 14 => ⟨S800000x128, .i1⟩
  | 15 => ⟨S_, .f32⟩
  | 16 => ⟨S800000x128, .f32⟩
  | 17 => ⟨S800000x128, .f32⟩
  | 18 => ⟨S800000x1, .f32⟩
  | 19 => ⟨S800000x128, .f32⟩
  | 20 => ⟨S800000x128, .f32⟩
  | 21 => ⟨S_, .f32⟩
  | 22 => ⟨S50000x128, .f32⟩
  | 23 => ⟨S800000x1, .i32⟩
  | 24 => ⟨S50000x128, .f32⟩
  | 25 => ⟨S1x128, .f32⟩
  | 26 => ⟨S50000x1, .f32⟩
  | 27 => ⟨S50000x128, .f32⟩
  | 28 => ⟨S50000x16, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000x16, .f32⟩
  | 48 => ⟨S800000x16, .i1⟩
  | 49 => ⟨S_, .f32⟩
  | 50 => ⟨S800000x16, .f32⟩
  | 51 => ⟨S800000x16, .f32⟩
  | 52 => ⟨S800000x1, .f32⟩
  | 53 => ⟨S800000x16, .f32⟩
  | 54 => ⟨S800000x16, .f32⟩
  | 55 => ⟨S_, .f32⟩
  | 56 => ⟨S50000x16, .f32⟩
  | 57 => ⟨S800000x1, .i32⟩
  | 58 => ⟨S50000x16, .f32⟩
  | 59 => ⟨S1x16, .f32⟩
  | 60 => ⟨S50000x1, .f32⟩
  | 61 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x16, .f32⟩
  | .local _ .vmem, ⟨45, _⟩ => ⟨S5000x16, .f32⟩
  | .local _ .vmem, ⟨46, _⟩ => ⟨S5000x16, .f32⟩
  | .local _ .vmem, ⟨47, _⟩ => ⟨S5000x16, .f32⟩
  | .local _ .vmem, ⟨48, _⟩ => ⟨S5000x16, .f32⟩
  | .local _ .vmem, ⟨49, _⟩ => ⟨S5000x16, .f32⟩
  | .local _ .vmem, ⟨50, _⟩ => ⟨S5000x16, .f32⟩
  | .local _ .vmem, ⟨51, _⟩ => ⟨S5000x1, .f32⟩
  | .local _ .vmem, ⟨52, _⟩ => ⟨S5000x1, .f32⟩
  | .local _ .vmem, ⟨53, _⟩ => ⟨S1x16, .f32⟩
  | .local _ .vmem, ⟨54, _⟩ => ⟨S5000x16, .f32⟩
  | .local _ .vmem, ⟨55, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_call1_c : Ref sig .tc := ⟨.hbm, 89, rfl⟩
abbrev main_call1_v0 : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_c_1 : Ref sig .tc := ⟨.hbm, 97, rfl⟩
abbrev main_call1_c_2 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_c_3 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_call1_cst : Ref sig .tc := ⟨.hbm, 109, rfl⟩
abbrev main_call1_v15 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_9 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_v14 : Ref sig .tc := ⟨.hbm, 142, rfl⟩
abbrev main_call2_cst : Ref sig .tc := ⟨.hbm, 143, rfl⟩
abbrev main_call2_v15 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_cst_10 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_call3_c : Ref sig .tc := ⟨.hbm, 157, rfl⟩
abbrev main_call3_v0 : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_c_1 : Ref sig .tc := ⟨.hbm, 165, rfl⟩
abbrev main_call3_c_2 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_c_3 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_call3_cst : Ref sig .tc := ⟨.hbm, 177, rfl⟩
abbrev main_call3_v15 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_cst_11 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x16 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S800000_S800000x16_0 : S800000.BroadcastsInDim S800000x16 (![0] : Fin 1 → Fin S800000x16.rank)
  bcast_S_S800000x16 : S_.BroadcastsInDim S800000x16 (![] : Fin 0 → Fin S800000x16.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x16_S5000x16_1_0_0_1_n_n_wf : DotDims.WF S5000x128 S128x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x16.size a ≤ S50000x16.size a
  hwx6_2 : ∀ i : grid6.Coords, EltTy.bits .f32 = 32 ∨ (Rect.block (s := S50000x16) S5000x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S50000x16.size a
  hwx7_0 : ∀ i : grid7.Coords, EltTy.bits .f32 = 32 ∨ (Rect.block (s := S50000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x16.size a ≤ S50000x16.size a
  hwx7_1 : ∀ i : grid7.Coords, EltTy.bits .f32 = 32 ∨ (Rect.block (s := S50000x16) S5000x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x16.size a ≤ S1x16.size a
  hwx7_3 : ∀ i : grid7.Coords, EltTy.bits .f32 = 32 ∨ (Rect.block (s := S1x16) S1x16.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x16.size a ≤ S50000x16.size a
  hwx7_4 : ∀ i : grid7.Coords, EltTy.bits .f32 = 32 ∨ (Rect.block (s := S50000x16) S5000x16.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v66) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v66) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S5000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S5000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v75) S1x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v77) S5000x16.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x16 : Shape := ⟨2, ![50000, 16]⟩
abbrev S800000x16 : Shape := ⟨2, ![800000, 16]⟩
abbrev S1x16 : Shape := ⟨2, ![1, 16]⟩

abbrev nBuf : Space → Nat
  | .hbm => 280
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .f32⟩
  | 68 => ⟨S50000, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S_, .f32⟩
  | 93 => ⟨S800000, .f32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x1, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S_, .f32⟩
  | 7 => ⟨S50000, .f32⟩
  | 8 => ⟨S50000, .f32⟩
  | 9 => ⟨S50000, .f32⟩
  | 10 => ⟨S50000x1, .f32⟩
  | 11 => ⟨S50000x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S_, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S_, .f32⟩
  | 32 => ⟨S800000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S_, .f32⟩
  | 74 => ⟨S50000, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x16, .f32⟩
  | 88 => ⟨S_, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S_, .f32⟩
  | 99 => ⟨S800000, .f32⟩
  | 100 => ⟨S50000, .f32⟩
  | 101 => ⟨S_, .f32⟩
  | 102 => ⟨S50000, .f32⟩
  | 103 => ⟨S50000, .f32⟩
  | 104 => ⟨S50000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000x16, .f32⟩
  | 5 => ⟨S800000x1, .f32⟩
  | 6 => ⟨S800000x16, .f32⟩
  | 7 => ⟨S800000x16, .f32⟩
  | 8 => ⟨S_, .f32⟩
  | 9 => ⟨S50000x16, .f32⟩
  | 10 => ⟨S800000x1, .i32⟩
  | 11 => ⟨S50000x16, .f32⟩
  | 12 => ⟨S_, .f32⟩
  | 13 => ⟨S50000, .f32⟩
  | 14 => ⟨S50000, .f32⟩
  | 15 => ⟨S50000, .f32⟩
  | 16 => ⟨S50000x1, .f32⟩
  | 17 => ⟨S50000x16, .f32⟩
  | 18 => ⟨S50000x16, .f32⟩
  | 19 => ⟨S50000x16, .f32⟩
  | 20 => ⟨S1x16, .f32⟩
  | 21 => ⟨S50000x16, .f32⟩
  | 22 => ⟨S50000x16, .f32⟩
  | 23 => ⟨S50000x16, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call0_cst : Ref sig .tc := ⟨.hbm, 78, rfl⟩
abbrev main_call0_v0 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_20 : Ref sig .tc := ⟨.hbm, 118, rfl⟩
abbrev main_v84 : Ref sig .tc := ⟨.hbm, 119, rfl⟩
abbrev main_v85 : Ref sig .tc := ⟨.hbm, 120, rfl⟩
abbrev main_c_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_call1_cst : Ref sig .tc := ⟨.hbm, 145, rfl⟩
abbrev main_call1_v0 : Ref sig .tc := ⟨.hbm, 146, rfl⟩
abbrev main_v107 : Ref sig .tc := ⟨.hbm, 147, rfl⟩
abbrev main_v108 : Ref sig .tc := ⟨.hbm, 148, rfl⟩
abbrev main_cst_24 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_27 : Ref sig .tc := ⟨.hbm, 159, rfl⟩
abbrev main_v116 : Ref sig .tc := ⟨.hbm, 160, rfl⟩
abbrev main_v117 : Ref sig .tc := ⟨.hbm, 161, rfl⟩
abbrev main_cst_28 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_29 : Ref sig .tc := ⟨.hbm, 166, rfl⟩
abbrev main_v121 : Ref sig .tc := ⟨.hbm, 167, rfl⟩
abbrev main_v122 : Ref sig .tc := ⟨.hbm, 168, rfl⟩
abbrev main_c_30 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_31 : Ref sig .tc := ⟨.hbm, 175, rfl⟩
abbrev main_v128 : Ref sig .tc := ⟨.hbm, 176, rfl⟩
abbrev main_v129 : Ref sig .tc := ⟨.hbm, 177, rfl⟩
abbrev main_c_32 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_33 : Ref sig .tc := ⟨.hbm, 185, rfl⟩
abbrev main_v136 : Ref sig .tc := ⟨.hbm, 186, rfl⟩
abbrev main_v137 : Ref sig .tc := ⟨.hbm, 187, rfl⟩
abbrev main_c_34 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_35 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_36 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_call2_cst : Ref sig .tc := ⟨.hbm, 212, rfl⟩
abbrev main_call2_v0 : Ref sig .tc := ⟨.hbm, 213, rfl⟩
abbrev main_v159 : Ref sig .tc := ⟨.hbm, 214, rfl⟩
abbrev main_v160 : Ref sig .tc := ⟨.hbm, 215, rfl⟩
abbrev main_cst_37 : Ref sig .tc := ⟨.hbm, 216, rfl⟩
abbrev main_v161 : Ref sig .tc := ⟨.hbm, 217, rfl⟩
abbrev main_c_38 : Ref sig .tc := ⟨.hbm, 218, rfl⟩
abbrev main_v162 : Ref sig .tc := ⟨.hbm, 219, rfl⟩
abbrev main_v163 : Ref sig .tc := ⟨.hbm, 220, rfl⟩
abbrev main_c_39 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_40 : Ref sig .tc := ⟨.hbm, 226, rfl⟩
abbrev main_v168 : Ref sig .tc := ⟨.hbm, 227, rfl⟩
abbrev main_v169 : Ref sig .tc := ⟨.hbm, 228, rfl⟩
abbrev main_cst_41 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_c_42 : Ref sig .tc := ⟨.hbm, 233, rfl⟩
abbrev main_v173 : Ref sig .tc := ⟨.hbm, 234, rfl⟩
abbrev main_v174 : Ref sig .tc := ⟨.hbm, 235, rfl⟩
abbrev main_c_43 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_c_44 : Ref sig .tc := ⟨.hbm, 242, rfl⟩
abbrev main_v180 : Ref sig .tc := ⟨.hbm, 243, rfl⟩
abbrev main_v181 : Ref sig .tc := ⟨.hbm, 244, rfl⟩
abbrev main_c_45 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_c_46 : Ref sig .tc := ⟨.hbm, 252, rfl⟩
abbrev main_v188 : Ref sig .tc := ⟨.hbm, 253, rfl⟩
abbrev main_v189 : Ref sig .tc := ⟨.hbm, 254, rfl⟩
abbrev main_c_47 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_48 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_49 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.Skip.lean ====
import proofs.«418511_j59657095741762_1_alg».proof.Proof.Gen.KernelIdeal.Launch
import Idealize.ShloMosaic.Lib.StableHlo.Run

/-! # Buffers a stretch of host operations leaves alone

A stretch of host operations rewrites only the result buffer of each of its operations. A buffer that is the
result of none of them therefore holds, after the stretch, what it held before it — whatever the contents the
stretch starts from. One lemma per stretch, over an explicit list of buffers the stretch does not write. -/

set_option maxRecDepth 4096

namespace Cert.Bridge.Skip

open Idealize.ShloMosaic Idealize.SL.Sem Cert.KernelIdeal Cert.KernelIdeal.Gen

variable {F : FTy → Type} [FloatOps F]

/-- No operation of the (literal) list `ops` has the buffer `r` as its result: the list is walked operation by
    operation, each operation's written set is its one result buffer, and two buffers are told apart as
    references. -/
local macro "skip_step" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-- Buffers that no operation of `hostOps0` writes. -/
abbrev keep0 : List (Ref sig .tc) := [main_arg0, main_arg2, main_arg3, main_arg4, main_arg5, main_arg6, main_arg7, main_arg8, main_arg9]

/-- Each buffer of `keep0` holds after `hostOps0` what it held before, from any contents `V`. -/
theorem skip_hostOps0 (V : Valuation τ sig (Elt F)) (b : Ref sig .tc) (hb : b ∈ keep0) :
    StableHlo.after hostOps0 V (Proc.devRef .tc b) = V (Proc.devRef .tc b) := by
  simp only [keep0, List.mem_cons, List.mem_singleton, List.not_mem_nil, or_false] at hb
  rcases hb with rfl | rfl | rfl | rfl | rfl | rfl | rfl | rfl | rfl
  all_goals skip_step hostOps0

/-- Buffers that no operation of `hostOps1` writes. -/
abbrev keep1 : List (Ref sig .tc) := [main_v1, main_v3, main_v30, main_v33, main_v34, main_arg3, main_arg4, main_arg5, main_arg6, main_arg7, main_arg8, main_arg9]

/-- Each buffer of `keep1` holds after `hostOps1` what it held before, from any contents `V`. -/
theorem skip_hostOps1 (V : Valuation τ sig (Elt F)) (b : Ref sig .tc) (hb : b ∈ keep1) :
    StableHlo.after hostOps1 V (Proc.devRef .tc b) = V (Proc.devRef .tc b) := by
  simp only [keep1, List.mem_cons, List.mem_singleton, List.not_mem_nil, or_false] at hb
  rcases hb with rfl | rfl | rfl | rfl | rfl | rfl | rfl | rfl | rfl | rfl | rfl | rfl
  all_goals skip_step hostOps1

/-- Buffers that no operation of `hostOps1_1` writes. -/
abbrev keep1_1 : List (Ref sig .tc) := [main_v1, main_v3, main_v30, main_v33, main_v34, main_v35, main_arg3, main_arg4, main_arg5, main_arg6, main_arg7, main_arg8, main_arg9]

/-- Each buffer of `keep1_1` holds after `hostOps1_1` what it held before, from any contents `V`. -/
theorem skip_hostOps1_1 (V : Valuation τ sig (Elt F)) (b : Ref sig .tc) (hb : b ∈ keep1_1) :
    StableHlo.after hostOps1_1 V (Proc.devRef .tc b) = V (Proc.devRef .tc b) := by
  simp only [keep1_1, List.mem_cons, List.mem_singleton, List.not_mem_nil, or_false] at hb
  rcases hb with rfl | rfl | rfl | rfl | rfl | rfl | rfl | rfl | rfl | rfl | rfl | rfl | rfl
  all_goals skip_step hostOps1_1

/-- Buffers that no operation of `hostOps3` writes. -/
abbrev keep3 : List (Ref sig .tc) := [main_v1, main_v3, main_v30, main_v33, main_v45, main_arg5, main_arg6, main_arg7, main_arg8, main_arg9]

/-- Each buffer of `keep3` holds after `hostOps3` what it held before, from any contents `V`. -/
theorem skip_hostOps3 (V : Valuation τ sig (Elt F)) (b : Ref sig .tc) (hb : b ∈ keep3) :
    StableHlo.after hostOps3 V (Proc.devRef .tc b) = V (Proc.devRef .tc b) := by
  simp only [keep3, List.mem_cons, List.mem_singleton, List.not_mem_nil, or_false] at hb
  rcases hb with rfl | rfl | rfl | rfl | rfl | rfl | rfl | rfl | rfl | rfl
  all_goals skip_step hostOps3

/-- Buffers that no operation of `hostOps3_1` writes. -/
abbrev keep3_1 : List (Ref sig .tc) := [main_v1, main_v3, main_v30, main_v33, main_v45, main_v46, main_arg5, main_arg6, main_arg7, main_arg8, main_arg9]

/-- Each buffer of `keep3_1` holds after `hostOps3_1` what it held before, from any contents `V`. -/
theorem skip_hostOps3_1 (V : Valuation τ sig (Elt F)) (b : Ref sig .tc) (hb : b ∈ keep3_1) :
    StableHlo.after hostOps3_1 V (Proc.devRef .tc b) = V (Proc.devRef .tc b) := by
  simp only [keep3_1, List.mem_cons, List.mem_singleton, List.not_mem_nil, or_false] at hb
  rcases hb with rfl | rfl | rfl | rfl | rfl | rfl | rfl | rfl | rfl | rfl | rfl
  all_goals skip_step hostOps3_1

/-- Buffers that no operation of `hostOps5` writes. -/
abbrev keep5 : List (Ref sig .tc) := [main_v1, main_v3, main_v30, main_v33, main_v56, main_arg7, main_arg8, main_arg9]

/-- Each buffer of `keep5` holds after `hostOps5` what it held before, from any contents `V`. -/
theorem skip_hostOps5 (V : Valuation τ sig (Elt F)) (b : Ref sig .tc) (hb : b ∈ keep5) :
    StableHlo.after hostOps5 V (Proc.devRef .tc b) = V (Proc.devRef .tc b) := by
  simp only [keep5, List.mem_cons, List.mem_singleton, List.not_mem_nil, or_false] at hb
  rcases hb with rfl | rfl | rfl | rfl | rfl | rfl | rfl | rfl
  all_goals skip_step hostOps5

/-- Buffers that no operation of `hostOps5_1` writes. -/
abbrev keep5_1 : List (Ref sig .tc) := [main_v1, main_v3, main_v30, main_v33, main_v56, main_v57, main_arg7, main_arg8, main_arg9]

/-- Each buffer of `keep5_1` holds after `hostOps5_1` what it held before, from any contents `V`. -/
theorem skip_hostOps5_1 (V : Valuation τ sig (Elt F)) (b : Ref sig .tc) (hb : b ∈ keep5_1) :
    StableHlo.after hostOps5_1 V (Proc.devRef .tc b) = V (Proc.devRef .tc b) := by
  simp only [keep5_1, List.mem_cons, List.mem_singleton, List.not_mem_nil, or_false] at hb
  rcases hb with rfl | rfl | rfl | rfl | rfl | rfl | rfl | rfl | rfl
  all_goals skip_step hostOps5_1

/-- Buffers that no operation of `hostOps7` writes. -/
abbrev keep7 : List (Ref sig .tc) := [main_v1, main_v3, main_v30, main_v33, main_v67, main_arg9]

/-- Each buffer of `keep7` holds after `hostOps7` what it held before, from any contents `V`. -/
theorem skip_hostOps7 (V : Valuation τ sig (Elt F)) (b : Ref sig .tc) (hb : b ∈ keep7) :
    StableHlo.after hostOps7 V (Proc.devRef .tc b) = V (Proc.devRef .tc b) := by
  simp only [keep7, List.mem_cons, List.mem_singleton, List.not_mem_nil, or_false] at hb
  rcases hb with rfl | rfl | rfl | rfl | rfl | rfl
  all_goals skip_step hostOps7

/-- Buffers that no operation of `hostOps7_1` writes. -/
abbrev keep7_1 : List (Ref sig .tc) := [main_v1, main_v3, main_v30, main_v33, main_v67, main_v68, main_arg9]

/-- Each buffer of `keep7_1` holds after `hostOps7_1` what it held before, from any contents `V`. -/
theorem skip_hostOps7_1 (V : Valuation τ sig (Elt F)) (b : Ref sig .tc) (hb : b ∈ keep7_1) :
    StableHlo.after hostOps7_1 V (Proc.devRef .tc b) = V (Proc.devRef .tc b) := by
  simp only [keep7_1, List.mem_cons, List.mem_singleton, List.not_mem_nil, or_false] at hb
  rcases hb with rfl | rfl | rfl | rfl | rfl | rfl | rfl
  all_goals skip_step hostOps7_1

end Cert.Bridge.Skip
-- ==== Proof.Levels.lean ====
/-
  Buffers carried across the layers. The program's state at the boundaries between its host stretches and its eight
  regions is the fold `W0 … W17` of the launch memory. A buffer that a stretch of host operations does not write, and
  that a region does not stage as one of its windows, holds at the later boundary what it held at the earlier one. Here
  these steps are chained over a layer at a time: from the exit of one matmul region (`W2`, `W6`, `W10`, `W14`) back to
  the exit of the previous one, and an argument array back to the launch memory.
-/
import proofs.«418511_j59657095741762_1_alg».proof.Proof.Gen.KernelIdeal.Frame
import proofs.«418511_j59657095741762_1_alg».proof.Proof.Skip

noncomputable section

namespace Cert.Bridge.Levels

open Idealize.ShloMosaic Idealize.ShloMosaic.TcCoe Idealize.SL.Sem Cert.KernelIdeal Cert.KernelIdeal.Gen Cert.Bridge.Skip

variable {F : FTy → Type} [FloatOps F]
variable (m : (ℓ : Loc nD τ sig) → Buf (Elt F) ℓ) (ρ : Dev nD → PrngReg) (c : Dev nD)

/-- The launch memory read at a buffer of the TensorCore. -/
theorem at0 (b : Ref sig .tc) : W0 m ρ c (Proc.devRef .tc b) = m ((c : Thread nD τ).loc b) := rfl

/-- Across the first host stretch (the graph quantities): an array it does not write. -/
theorem keep1 (b : Ref sig .tc) (h : b ∈ keep0) : W1 m ρ c (Proc.devRef .tc b) = m ((c : Thread nD τ).loc b) :=
  skip_hostOps0 (W0 m ρ c) b h

/-- Across the first matmul region: a buffer that is none of its windows' arrays. -/
theorem keep2 (b : Ref sig .tc) (h : ∀ w, Pipeline.arrRef spec0 w ≠ b) :
    W2 m ρ c (Proc.devRef .tc b) = W1 m ρ c (Proc.devRef .tc b) := W2_of_ne m ρ c b h

/-- Across layer 1's message-passing stretch. -/
theorem keep4 (b : Ref sig .tc) (h1 : b ∈ Skip.keep1) (h2 : b ∈ keep1_1) :
    W4 m ρ c (Proc.devRef .tc b) = W2 m ρ c (Proc.devRef .tc b) :=
  (skip_hostOps1_1 (W3 m ρ c) b h2).trans (skip_hostOps1 (W2 m ρ c) b h1)

/-- Across layer 1's fused region and layer 2's matmul region. -/
theorem keep6 (b : Ref sig .tc) (h5 : ∀ w, Pipeline.arrRef spec1 w ≠ b) (h6 : ∀ w, Pipeline.arrRef spec2 w ≠ b) :
    W6 m ρ c (Proc.devRef .tc b) = W4 m ρ c (Proc.devRef .tc b) :=
  (W6_of_ne m ρ c b h6).trans (W5_of_ne m ρ c b h5)

/-- Across layer 2's message-passing stretch. -/
theorem keep8 (b : Ref sig .tc) (h1 : b ∈ keep3) (h2 : b ∈ keep3_1) :
    W8 m ρ c (Proc.devRef .tc b) = W6 m ρ c (Proc.devRef .tc b) :=
  (skip_hostOps3_1 (W7 m ρ c) b h2).trans (skip_hostOps3 (W6 m ρ c) b h1)

/-- Across layer 2's fused region and layer 3's matmul region. -/
theorem keep10 (b : Ref sig .tc) (h9 : ∀ w, Pipeline.arrRef spec3 w ≠ b) (h10 : ∀ w, Pipeline.arrRef spec4 w ≠ b) :
    W10 m ρ c (Proc.devRef .tc b) = W8 m ρ c (Proc.devRef .tc b) :=
  (W10_of_ne m ρ c b h10).trans (W9_of_ne m ρ c b h9)

/-- Across layer 3's message-passing stretch. -/
theorem keep12 (b : Ref sig .tc) (h1 : b ∈ keep5) (h2 : b ∈ keep5_1) :
    W12 m ρ c (Proc.devRef .tc b) = W10 m ρ c (Proc.devRef .tc b) :=
  (skip_hostOps5_1 (W11 m ρ c) b h2).trans (skip_hostOps5 (W10 m ρ c) b h1)

/-- Across layer 3's fused region and layer 4's matmul region. -/
theorem keep14 (b : Ref sig .tc) (h13 : ∀ w, Pipeline.arrRef spec5 w ≠ b) (h14 : ∀ w, Pipeline.arrRef spec6 w ≠ b) :
    W14 m ρ c (Proc.devRef .tc b) = W12 m ρ c (Proc.devRef .tc b) :=
  (W14_of_ne m ρ c b h14).trans (W13_of_ne m ρ c b h13)

/-- Across layer 4's message-passing stretch. -/
theorem keep16 (b : Ref sig .tc) (h1 : b ∈ keep7) (h2 : b ∈ keep7_1) :
    W16 m ρ c (Proc.devRef .tc b) = W14 m ρ c (Proc.devRef .tc b) :=
  (skip_hostOps7_1 (W15 m ρ c) b h2).trans (skip_hostOps7 (W14 m ρ c) b h1)

/-! The four graph quantities (source row, destination row, edge weights, self-loop coefficients) are written once, by
    the first stretch, and read by every layer: at each matmul region's exit they are what that stretch left. -/

theorem carried6 (b : Ref sig .tc) (h0 : ∀ w, Pipeline.arrRef spec0 w ≠ b) (h1 : b ∈ Skip.keep1) (h2 : b ∈ keep1_1)
    (h5 : ∀ w, Pipeline.arrRef spec1 w ≠ b) (h6 : ∀ w, Pipeline.arrRef spec2 w ≠ b) :
    W6 m ρ c (Proc.devRef .tc b) = W1 m ρ c (Proc.devRef .tc b) :=
  (keep6 m ρ c b h5 h6).trans ((keep4 m ρ c b h1 h2).trans (keep2 m ρ c b h0))

theorem carried10 (b : Ref sig .tc) (h0 : ∀ w, Pipeline.arrRef spec0 w ≠ b) (h1 : b ∈ Skip.keep1) (h2 : b ∈ keep1_1)
    (h5 : ∀ w, Pipeline.arrRef spec1 w ≠ b) (h6 : ∀ w, Pipeline.arrRef spec2 w ≠ b)
    (h7 : b ∈ keep3) (h8 : b ∈ keep3_1) (h9 : ∀ w, Pipeline.arrRef spec3 w ≠ b) (h10 : ∀ w, Pipeline.arrRef spec4 w ≠ b) :
    W10 m ρ c (Proc.devRef .tc b) = W1 m ρ c (Proc.devRef .tc b) :=
  (keep10 m ρ c b h9 h10).trans ((keep8 m ρ c b h7 h8).trans (carried6 m ρ c b h0 h1 h2 h5 h6))

theorem carried14 (b : Ref sig .tc) (h0 : ∀ w, Pipeline.arrRef spec0 w ≠ b) (h1 : b ∈ Skip.keep1) (h2 : b ∈ keep1_1)
    (h5 : ∀ w, Pipeline.arrRef spec1 w ≠ b) (h6 : ∀ w, Pipeline.arrRef spec2 w ≠ b)
    (h7 : b ∈ keep3) (h8 : b ∈ keep3_1) (h9 : ∀ w, Pipeline.arrRef spec3 w ≠ b) (h10 : ∀ w, Pipeline.arrRef spec4 w ≠ b)
    (h11 : b ∈ keep5) (h12 : b ∈ keep5_1) (h13 : ∀ w, Pipeline.arrRef spec5 w ≠ b) (h14 : ∀ w, Pipeline.arrRef spec6 w ≠ b) :
    W14 m ρ c (Proc.devRef .tc b) = W1 m ρ c (Proc.devRef .tc b) :=
  (keep14 m ρ c b h13 h14).trans ((keep12 m ρ c b h11 h12).trans (carried10 m ρ c b h0 h1 h2 h5 h6 h7 h8 h9 h10))

end Cert.Bridge.Levels

end
-- ==== Proof.Spec.lean ====
/-
  The graph side of the network, as one set of functions of the edge list, and one layer's message passing as a
  function of the layer's dense transform.

  Both programs compute the same graph quantities from the edge list `ei : i32[2, 800000]` (row 0 the source node of
  each edge, row 1 its destination): the in-degree plus the self-loop weight 2, its inverse square root `dinv`, the
  per-edge weight `norm e = dinv (src e) · dinv (dst e)` and the per-node self-loop coefficient `slc n = 2 · dinv n · dinv n`.
  A gather reads its table at a start index that is first wrapped once (a negative index counts from the end); a
  scatter-add sums the updates of the edges that name a node. One layer's aggregation of a dense transform `h` is
  `agg = scatter-add over dst of (h (src e) · norm e)`.

  The definitions are spelt operation for operation as the programs print them, so that a run's read-back meets them
  by unfolding alone.
-/
import proofs.«418511_j59657095741762_1_alg».proof.KernelIdeal
import proofs.«418511_j59657095741762_1_alg».proof.Proof.Gen.KernelIdeal

noncomputable section

namespace Cert.Bridge

open Idealize.ShloMosaic Idealize.SL.Sem Cert.KernelIdeal Cert.KernelIdeal.Facts₀ Cert.KernelIdeal.Facts

variable {F : FTy → Type} [FloatOps F]

/-- Row 0 of the edge list: each edge's source node. -/
def srcOf (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dstOf (ei : IVec S2x800000 32) : IVec S800000 32 :=
  shapeCast S800000 (extractStridedSlice S1x800000 ![1, 0] ei slices_S2x800000_S1x800000_1_0) shapeCasts_S1x800000_S800000

/-- A node index wrapped once: a negative index `s` reads as `s + 50000`. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The start indices of a gather or scatter along the node axis: the wrapped indices as a column. -/
def startIdx (s : IVec S800000 32) : IVec S800000x1 32 :=
  broadcastInDim S800000x1 ![0] bcast_S800000_S800000x1_0 (wrapIdx s)

/-- The unwrapped indices as a column (a segment sum takes its segment ids as they are). -/
def rawIdx (s : IVec S800000 32) : IVec S800000x1 32 :=
  broadcastInDim S800000x1 ![0] bcast_S800000_S800000x1_0 s

/-- In-degree plus the self-loop weight: one per edge scattered onto its destination, plus 2. -/
def degOf (ei : IVec S2x800000 32) : FVec F S50000 .f32 :=
  addf (Host.scatterAdd scatter_S50000_S800000x1_S800000_n_0_0_1
      (broadcastInDim S50000 ![] bcast_S_S50000 (constant S_ .f32 0x00000000#32))
      (startIdx (dstOf ei))
      (broadcastInDim S800000 ![] bcast_S_S800000 (constant S_ .f32 0x3F800000#32)))
    (broadcastInDim S50000 ![] bcast_S_S50000 (constant S_ .f32 0x40000000#32))

/-- The inverse square root of the degree. -/
def dinvOf (ei : IVec S2x800000 32) : FVec F S50000 .f32 := Host.rsqrt (degOf (F := F) ei)

/-- The weight of each edge: `dinv` at its source times `dinv` at its destination. -/
def normOf (ei : IVec S2x800000 32) : FVec F S800000 .f32 :=
  mulf (Host.gather gather_S50000_S800000x1_S800000_n_0_n_n_0_1_1 (dinvOf (F := F) ei) (startIdx (srcOf ei)))
    (Host.gather gather_S50000_S800000x1_S800000_n_0_n_n_0_1_1 (dinvOf (F := F) ei) (startIdx (dstOf ei)))

/-- The self-loop coefficient of each node: `2 · dinv · dinv`. -/
def slcOf (ei : IVec S2x800000 32) : FVec F S50000 .f32 :=
  mulf (mulf (broadcastInDim S50000 ![] bcast_S_S50000 (constant S_ .f32 0x40000000#32)) (dinvOf (F := F) ei)) (dinvOf (F := F) ei)

/-- The edge weights laid along the 128 features of a message. -/
def normCols128 (ei : IVec S2x800000 32) : FVec F S800000x128 .f32 :=
  broadcastInDim S800000x128 ![0, 1] bcast_S800000x1_S800000x128_0_1
    (broadcastInDim S800000x1 ![0] bcast_S800000_S800000x1_0 (normOf (F := F) ei))

/-- The edge weights laid along the 16 classes of a message. -/
def normCols16 (ei : IVec S2x800000 32) : FVec F S800000x16 .f32 :=
  broadcastInDim S800000x16 ![0, 1] bcast_S800000x1_S800000x16_0_1
    (broadcastInDim S800000x1 ![0] bcast_S800000_S800000x1_0 (normOf (F := F) ei))

/-- The rows of a dense transform `h` at each edge's source node. -/
def gather128 (h : FVec F S50000x128 .f32) (ei : IVec S2x800000 32) : FVec F S800000x128 .f32 :=
  Host.gather gather_S50000x128_S800000x1_S800000x128_1_0_n_n_0_1_1128 h (startIdx (srcOf ei))

def gather16 (h : FVec F S50000x16 .f32) (ei : IVec S2x800000 32) : FVec F S800000x16 .f32 :=
  Host.gather gather_S50000x16_S800000x1_S800000x16_1_0_n_n_0_1_116 h (startIdx (srcOf ei))

/-- One layer's aggregation from the per-edge rows `g`: each weighted by its edge and summed onto the edge's destination. -/
def aggOf128 (g : FVec F S800000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32))
    (rawIdx (dstOf ei))
    (mulf g (normCols128 (F := F) ei))

def aggOf16 (g : FVec F S800000x16 .f32) (ei : IVec S2x800000 32) : FVec F S50000x16 .f32 :=
  Host.scatterAdd scatter_S50000x16_S800000x1_S800000x16_1_0_0_1
    (broadcastInDim S50000x16 ![] bcast_S_S50000x16 (constant S_ .f32 0x00000000#32))
    (rawIdx (dstOf ei))
    (mulf g (normCols16 (F := F) ei))

end Cert.Bridge

end
-- ==== Proof.Take.lean ====
/-
  The masked row gather is the plain row gather, under the precondition.

  The kernel reads the rows of a dense transform at each edge's source node through a gather that guards itself: the
  start index is wrapped once (a negative index counts from the end), the wrapped index is tested against the table's
  rows 0 … 49999, and a row whose index fails the test is replaced by a NaN fill. The reference makes the gather alone.
  The precondition's last conjunct says that every source index s satisfies 0 ≤ s < 50000 as a signed 32-bit word.
  Then s is not negative, so the wrap leaves it as it is; 0 ≤ s ≤ 49999, so the test passes at every edge; the per-edge
  and-reduction over the one column of the test is 1; and a select on a mask that is 1 everywhere returns its first
  operand: the gather.
-/
import proofs.«418511_j59657095741762_1_alg».proof.Defs
import proofs.«418511_j59657095741762_1_alg».proof.Proof.Gen.KernelIdeal
import proofs.«418511_j59657095741762_1_alg».proof.Proof.Gen.Pre_finite_inputs
import proofs.«418511_j59657095741762_1_alg».proof.Proof.Spec
import Idealize.ShloMosaic.Lib.StableHlo.Predicate
import Idealize.ShloMosaic.Lib.ReduceAll
import Idealize.ShloMosaic.Lib.ValueIdx

noncomputable section

namespace Cert.Bridge

open Idealize.ShloMosaic Idealize.SL.Sem Cert.KernelIdeal Cert.KernelIdeal.Facts₀ Cert.KernelIdeal.Facts

variable {F : FTy → Type} [FloatOps F]

/-! ## The definitions: the guard and the guarded gathers, operation for operation -/

/-- The guard of a gather along the node axis: per edge, whether the wrapped start index lies in 0 … 49999 (the
    and-reduction, over the one column of the start indices, of the two signed tests). -/
def inRange (s : IVec S800000 32) : IVec S800000 1 :=
  Host.reduce IntOp.andi
    (andi (cmpi .sge (startIdx s) (broadcastInDim S800000x1 ![] bcast_S_S800000x1 (constantI S_ 32 0#32)))
      (cmpi .sle (startIdx s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The guarded gather of the rows of a [50000, 128] table: the gathered row where the guard holds, a NaN fill elsewhere. -/
def take128 (h : FVec F S50000x128 .f32) (s : IVec S800000 32) : FVec F S800000x128 .f32 :=
  select (broadcastInDim S800000x128 ![0] bcast_S800000_S800000x128_0 (inRange s))
    (Host.gather gather_S50000x128_S800000x1_S800000x128_1_0_n_n_0_1_1128 h (startIdx s))
    (broadcastInDim S800000x128 ![] bcast_S_S800000x128 (constant S_ .f32 0x7FC00000#32))

/-- The guarded gather of the rows of a [50000, 16] table. -/
def take16 (h : FVec F S50000x16 .f32) (s : IVec S800000 32) : FVec F S800000x16 .f32 :=
  select (broadcastInDim S800000x16 ![0] bcast_S800000_S800000x16_0 (inRange s))
    (Host.gather gather_S50000x16_S800000x1_S800000x16_1_0_n_n_0_1_116 h (startIdx s))
    (broadcastInDim S800000x16 ![] bcast_S_S800000x16 (constant S_ .f32 0x7FC00000#32))

/-! ## Words -/

/-- A word s with 0 ≤ s < 50000 signed has a value below 50000: the first test excludes the negative half, on the other
    half the signed and the unsigned readings agree. -/
theorem toNat_lt_of_signed_range (w : BitVec 32) (h0 : IntOp.cmpi .sge w 0#32 = 1#1)
    (h1 : IntOp.cmpi .slt w 50000#32 = 1#1) : w.toNat < 50000 := by
  unfold IntOp.cmpi at h0 h1
  rw [StableHlo.Predicate.ofBool_eq_one_iff] at h0 h1
  have h0' : (0#32 : BitVec 32).toInt ≤ w.toInt := BitVec.sle_iff_toInt_le.1 h0
  have h1' : w.toInt < (50000#32 : BitVec 32).toInt := BitVec.slt_iff_toInt_lt.1 h1
  have z : (0#32 : BitVec 32).toInt = 0 := by decide
  have n : (50000#32 : BitVec 32).toInt = 50000 := by decide
  rw [z] at h0'
  rw [n] at h1'
  rw [BitVec.toInt_eq_toNat_cond] at h0' h1'
  have hw := w.isLt
  split at h0' <;> omega

/-- At a word s below 50000 the wrap is the identity and both tests of the guard pass. -/
theorem guard_word (w : BitVec 32) (hw : w.toNat < 50000) :
    IntOp.andi
        (IntOp.cmpi .sge (Scalar.select (IntOp.cmpi .slt w 0#32) (IntOp.addi w 50000#32) w) 0#32)
        (IntOp.cmpi .sle (Scalar.select (IntOp.cmpi .slt w 0#32) (IntOp.addi w 50000#32) w) 49999#32) = 1#1 := by
  have hw31 : w.toNat < 2 ^ 31 := by omega
  have hz31 : (0#32 : BitVec 32).toNat < 2 ^ 31 := by decide
  have hn31 : (49999#32 : BitVec 32).toNat < 2 ^ 31 := by decide
  have hneg : ¬ IntOp.cmpi .slt w 0#32 = 1#1 := fun e => by
    have := (StableHlo.Predicate.slt_iff_toNat hw31 hz31).1 e
    have z : (0#32 : BitVec 32).toNat = 0 := rfl
    omega
  have hsel : Scalar.select (IntOp.cmpi .slt w 0#32) (IntOp.addi w 50000#32) w = w := if_neg hneg
  rw [hsel]
  refine IntOp.andi_eq_one.2 ⟨(StableHlo.Predicate.sge_iff_toNat hw31 hz31).2 ?_, (StableHlo.Predicate.sle_iff_toNat hw31 hn31).2 ?_⟩
  · exact Nat.zero_le _
  · have n : (49999#32 : BitVec 32).toNat = 49999 := rfl
    omega

/-! ## An and-reduction of ones -/

/-- A left fold by and, from 1, over words that are all 1, is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; rfl
    rw [List.foldl_cons, e]
    exact foldl_andi_of_all_one f l fun n hn => h n (List.mem_cons_of_mem _ hn)

/-- A reduce by and, from an initial 1, of an array of ones is 1 at every result index. -/
theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_of_all_one x _ fun i _ => hx i

/-- Every element of a broadcast of an array is an element of the array. -/
theorem broadcastInDim_exists {α : Type} {s t : Shape} (dims : Fin s.rank → Fin t.rank) (h : s.BroadcastsInDim t dims)
    (x : s.Idx → α) (j : t.Idx) : ∃ k, broadcastInDim t dims h x j = x k := ⟨_, rfl⟩

/-! ## The guard holds where every source index is in range -/

/-- With every index below 50000, the guard is 1 at every edge. -/
theorem inRange_eq_one (s : IVec S800000 32) (hs : ∀ k, (s k).toNat < 50000) : inRange s = fun _ => 1#1 := by
  funext j
  unfold inRange
  refine reduce_andi_of_all_one _ _ _ _ j (fun i => ?_) rfl
  obtain ⟨k, hk⟩ := broadcastInDim_exists ![0] bcast_S800000_S800000x1_0 (wrapIdx s) i
  have ec : startIdx s i = wrapIdx s k := hk
  show IntOp.andi (IntOp.cmpi .sge (startIdx s i) 0#32) (IntOp.cmpi .sle (startIdx s i) 49999#32) = 1#1
  rw [ec]
  exact guard_word (s k) (hs k)

/-- Where the guard is 1 at every edge the guarded gather is the gather. -/
theorem take128_eq_gather (h : FVec F S50000x128 .f32) (s : IVec S800000 32) (hr : inRange s = fun _ => 1#1) :
    take128 h s = Host.gather gather_S50000x128_S800000x1_S800000x128_1_0_n_n_0_1_1128 h (startIdx s) := by
  funext j
  unfold take128
  rw [hr]
  exact ValueIdx.select_one _ _

theorem take16_eq_gather (h : FVec F S50000x16 .f32) (s : IVec S800000 32) (hr : inRange s = fun _ => 1#1) :
    take16 h s = Host.gather gather_S50000x16_S800000x1_S800000x16_1_0_n_n_0_1_116 h (startIdx s) := by
  funext j
  unfold take16
  rw [hr]
  exact ValueIdx.select_one _ _

/-! ## The precondition decoded -/

/-- The printed precondition, all ones, says of every edge's source index s that 0 ≤ s < 50000: its outermost conjunct is
    the and-reduction over the edges of the two signed tests. -/
theorem src_lt_of_fn (a0 : FVec Ideal S50000x128 .f32) (x1 : IVec S2x800000 32) (a2 : FVec Ideal S128x128 .f32)
    (a3 : FVec Ideal S128 .f32) (a4 : FVec Ideal S128x128 .f32) (a5 : FVec Ideal S128 .f32) (a6 : FVec Ideal S128x128 .f32)
    (a7 : FVec Ideal S128 .f32) (a8 : FVec Ideal S128x16 .f32) (a9 : FVec Ideal S16 .f32)
    (hfn : Cert.Pre_finite_inputs.fn (F := Ideal) a0 x1 a2 a3 a4 a5 a6 a7 a8 a9 = fun _ => 1#1) (k : S800000.Idx) :
    (srcOf x1 k).toNat < 50000 := by
  have e0 := congrFun hfn ValueIdx.ix0
  dsimp only [Cert.Pre_finite_inputs.fn, Cert.Pre_finite_inputs.fn_part1, Cert.Pre_finite_inputs.fn_part2,
    Cert.Pre_finite_inputs.fn_part3] at e0
  obtain ⟨-, e1⟩ := IntOp.andi_eq_one.1 e0
  haveI : Subsingleton Cert.Pre_finite_inputs.S_.Idx := ⟨fun a b => funext fun d => d.elim0⟩
  have e2 := Host.reduce_andi_all _ _ _ _ _ e1 k
  obtain ⟨e3, e4⟩ := IntOp.andi_eq_one.1 e2
  exact toNat_lt_of_signed_range (srcOf x1 k) e3 e4

/-! ## The theorems -/

theorem inRange_of_pre (m : (ℓ : Loc nD τ sig) → Buf (Elt Ideal) ℓ) (hpre : Cert.Pre_KernelIdeal m) (c : Dev nD) :
    inRange (srcOf (m ((c.tc : Thread nD τ).loc main_arg1))) = fun _ => 1#1 :=
  inRange_eq_one _ fun k => src_lt_of_fn _ _ _ _ _ _ _ _ _ _ (hpre c) k

theorem take128_of_pre (m : (ℓ : Loc nD τ sig) → Buf (Elt Ideal) ℓ) (hpre : Cert.Pre_KernelIdeal m) (c : Dev nD)
    (h : FVec Ideal S50000x128 .f32) :
    take128 h (srcOf (m ((c.tc : Thread nD τ).loc main_arg1))) = gather128 h (m ((c.tc : Thread nD τ).loc main_arg1)) :=
  take128_eq_gather h _ (inRange_of_pre m hpre c)

theorem take16_of_pre (m : (ℓ : Loc nD τ sig) → Buf (Elt Ideal) ℓ) (hpre : Cert.Pre_KernelIdeal m) (c : Dev nD)
    (h : FVec Ideal S50000x16 .f32) :
    take16 h (srcOf (m ((c.tc : Thread nD τ).loc main_arg1))) = gather16 h (m ((c.tc : Thread nD τ).loc main_arg1)) :=
  take16_eq_gather h _ (inRange_of_pre m hpre c)

end Cert.Bridge

end
-- ==== Proof.Stretch.lean ====
import proofs.«418511_j59657095741762_1_alg».proof.Proof.Gen.KernelIdeal.Launch
import Idealize.ShloMosaic.Lib.StableHlo.Run
import proofs.«418511_j59657095741762_1_alg».proof.Proof.Spec
import proofs.«418511_j59657095741762_1_alg».proof.Proof.Take

/-! # What a stretch of host operations computes

Each buffer a stretch of host operations writes holds, after the stretch, the composition of the stretch's
operations applied to the contents the stretch starts from. Read off for the buffers later stages use: the edge
list's two rows, the per-edge weight and the per-node self-loop coefficient (the first stretch), and one layer's
aggregated messages, its bias as a row and the self-loop coefficient as a column (the stretch before each fused
stage), and the guarded gather of a stage's dense transform at each edge's source node (the stretch after each
matrix-product stage) — each as a function of the starting contents `V` at the buffers the stretch reads. -/

set_option maxRecDepth 4096

namespace Cert.Bridge.Stretch

open Idealize.ShloMosaic Idealize.SL.Sem Cert.KernelIdeal Cert.KernelIdeal.Gen Cert.Bridge

variable {F : FTy → Type} [FloatOps F]

/-! ## The first stretch: the graph quantities, from the edge list -/

/-- The source row. -/
theorem h0_v1 (V : Valuation τ sig (Elt F)) :
    StableHlo.after hostOps0 V (Proc.devRef .tc main_v1) = srcOf (V (Proc.devRef .tc main_arg1)) := by
  dsimp only [hostOps0]; after_results_simp <;> rfl

/-- The destination row. -/
theorem h0_v3 (V : Valuation τ sig (Elt F)) :
    StableHlo.after hostOps0 V (Proc.devRef .tc main_v3) = dstOf (V (Proc.devRef .tc main_arg1)) := by
  dsimp only [hostOps0]; after_results_simp <;> rfl

/-- The per-edge weight. -/
theorem h0_v30 (V : Valuation τ sig (Elt F)) :
    StableHlo.after hostOps0 V (Proc.devRef .tc main_v30) = normOf (F := F) (V (Proc.devRef .tc main_arg1)) := by
  dsimp only [hostOps0]; after_results_simp <;> rfl

/-- The per-node self-loop coefficient. -/
theorem h0_v33 (V : Valuation τ sig (Elt F)) :
    StableHlo.after hostOps0 V (Proc.devRef .tc main_v33) = slcOf (F := F) (V (Proc.devRef .tc main_arg1)) := by
  dsimp only [hostOps0]; after_results_simp <;> rfl

/-! ## The stretch before fused stage 1: messages weighted and summed, the bias as a row, the coefficient as a column -/

/-- The aggregated messages: the per-edge rows, each times its edge's weight, summed onto the edge's destination. -/
theorem h1_1_agg (V : Valuation τ sig (Elt F)) :
    StableHlo.after hostOps1_1 V (Proc.devRef .tc main_v41)
      = Host.scatterAdd scatter_S50000x128_S800000x1_S800000x128_1_0_0_1
          (broadcastInDim S50000x128 ![] bcast_S_S50000x128 (constant S_ .f32 0x00000000#32))
          (rawIdx (V (Proc.devRef .tc main_v3)))
          (mulf (V (Proc.devRef .tc main_v35))
            (broadcastInDim S800000x128 ![0, 1] bcast_S800000x1_S800000x128_0_1
              (broadcastInDim S800000x1 ![0] bcast_S800000_S800000x1_0 (V (Proc.devRef .tc main_v30))))) := by
  dsimp only [hostOps1_1]; after_results; rfl

/-- The bias as a one-row matrix. -/
theorem h1_1_b2d (V : Valuation τ sig (Elt F)) :
    StableHlo.after hostOps1_1 V (Proc.devRef .tc main_v42)
      = shapeCast S1x128 (V (Proc.devRef .tc main_arg3)) shapeCasts_S128_S1x128 := by
  dsimp only [hostOps1_1]; after_results; rfl

/-- The self-loop coefficient as a one-column matrix. -/
theorem h1_1_slc2d (V : Valuation τ sig (Elt F)) :
    StableHlo.after hostOps1_1 V (Proc.devRef .tc main_v43)
      = shapeCast S50000x1 (V (Proc.devRef .tc main_v33)) shapeCasts_S50000_S50000x1 := by
  dsimp only [hostOps1_1]; after_results; rfl

/-! ## The stretch before fused stage 3: messages weighted and summed, the bias as a row, the coefficient as a column -/

/-- The aggregated messages: the per-edge rows, each times its edge's weight, summed onto the edge's destination. -/
theorem h3_1_agg (V : Valuation τ sig (Elt F)) :
    StableHlo.after hostOps3_1 V (Proc.devRef .tc main_v52)
      = Host.scatterAdd scatter_S50000x128_S800000x1_S800000x128_1_0_0_1
          (broadcastInDim S50000x128 ![] bcast_S_S50000x128 (constant S_ .f32 0x00000000#32))
          (rawIdx (V (Proc.devRef .tc main_v3)))
          (mulf (V (Proc.devRef .tc main_v46))
            (broadcastInDim S800000x128 ![0, 1] bcast_S800000x1_S800000x128_0_1
              (broadcastInDim S800000x1 ![0] bcast_S800000_S800000x1_0 (V (Proc.devRef .tc main_v30))))) := by
  dsimp only [hostOps3_1]; after_results; rfl

/-- The bias as a one-row matrix. -/
theorem h3_1_b2d (V : Valuation τ sig (Elt F)) :
    StableHlo.after hostOps3_1 V (Proc.devRef .tc main_v53)
      = shapeCast S1x128 (V (Proc.devRef .tc main_arg5)) shapeCasts_S128_S1x128 := by
  dsimp only [hostOps3_1]; after_results; rfl

/-- The self-loop coefficient as a one-column matrix. -/
theorem h3_1_slc2d (V : Valuation τ sig (Elt F)) :
    StableHlo.after hostOps3_1 V (Proc.devRef .tc main_v54)
      = shapeCast S50000x1 (V (Proc.devRef .tc main_v33)) shapeCasts_S50000_S50000x1 := by
  dsimp only [hostOps3_1]; after_results; rfl

/-! ## The stretch before fused stage 5: messages weighted and summed, the bias as a row, the coefficient as a column -/

/-- The aggregated messages: the per-edge rows, each times its edge's weight, summed onto the edge's destination. -/
theorem h5_1_agg (V : Valuation τ sig (Elt F)) :
    StableHlo.after hostOps5_1 V (Proc.devRef .tc main_v63)
      = Host.scatterAdd scatter_S50000x128_S800000x1_S800000x128_1_0_0_1
          (broadcastInDim S50000x128 ![] bcast_S_S50000x128 (constant S_ .f32 0x00000000#32))
          (rawIdx (V (Proc.devRef .tc main_v3)))
          (mulf (V (Proc.devRef .tc main_v57))
            (broadcastInDim S800000x128 ![0, 1] bcast_S800000x1_S800000x128_0_1
              (broadcastInDim S800000x1 ![0] bcast_S800000_S800000x1_0 (V (Proc.devRef .tc main_v30))))) := by
  dsimp only [hostOps5_1]; after_results; rfl

/-- The bias as a one-row matrix. -/
theorem h5_1_b2d (V : Valuation τ sig (Elt F)) :
    StableHlo.after hostOps5_1 V (Proc.devRef .tc main_v64)
      = shapeCast S1x128 (V (Proc.devRef .tc main_arg7)) shapeCasts_S128_S1x128 := by
  dsimp only [hostOps5_1]; after_results; rfl

/-- The self-loop coefficient as a one-column matrix. -/
theorem h5_1_slc2d (V : Valuation τ sig (Elt F)) :
    StableHlo.after hostOps5_1 V (Proc.devRef .tc main_v65)
      = shapeCast S50000x1 (V (Proc.devRef .tc main_v33)) shapeCasts_S50000_S50000x1 := by
  dsimp only [hostOps5_1]; after_results; rfl

/-! ## The stretch before fused stage 7: messages weighted and summed, the bias as a row, the coefficient as a column -/

/-- The aggregated messages: the per-edge rows, each times its edge's weight, summed onto the edge's destination. -/
theorem h7_1_agg (V : Valuation τ sig (Elt F)) :
    StableHlo.after hostOps7_1 V (Proc.devRef .tc main_v74)
      = Host.scatterAdd scatter_S50000x16_S800000x1_S800000x16_1_0_0_1
          (broadcastInDim S50000x16 ![] bcast_S_S50000x16 (constant S_ .f32 0x00000000#32))
          (rawIdx (V (Proc.devRef .tc main_v3)))
          (mulf (V (Proc.devRef .tc main_v68))
            (broadcastInDim S800000x16 ![0, 1] bcast_S800000x1_S800000x16_0_1
              (broadcastInDim S800000x1 ![0] bcast_S800000_S800000x1_0 (V (Proc.devRef .tc main_v30))))) := by
  dsimp only [hostOps7_1]; after_results; rfl

/-- The bias as a one-row matrix. -/
theorem h7_1_b2d (V : Valuation τ sig (Elt F)) :
    StableHlo.after hostOps7_1 V (Proc.devRef .tc main_v75)
      = shapeCast S1x16 (V (Proc.devRef .tc main_arg9)) shapeCasts_S16_S1x16 := by
  dsimp only [hostOps7_1]; after_results; rfl

/-- The self-loop coefficient as a one-column matrix. -/
theorem h7_1_slc2d (V : Valuation τ sig (Elt F)) :
    StableHlo.after hostOps7_1 V (Proc.devRef .tc main_v76)
      = shapeCast S50000x1 (V (Proc.devRef .tc main_v33)) shapeCasts_S50000_S50000x1 := by
  dsimp only [hostOps7_1]; after_results; rfl

/-! ## The stretch after each matrix-product stage: the guarded row gather

The stretch wraps each edge's source index once, tests the wrapped index against the table's rows, gathers the
table's rows at the wrapped indices and replaces a row whose index fails the test by a fill: the guarded gather of
the stage's dense transform at the source row, operation for operation. -/

/-- The guarded gather of the stage's dense transform at each edge's source node. -/
theorem h1_take (V : Valuation τ sig (Elt F)) :
    StableHlo.after hostOps1 V (Proc.devRef .tc main_v35)
      = take128 (V (Proc.devRef .tc main_v34)) (V (Proc.devRef .tc main_v1)) := by
  dsimp only [hostOps1, main_call0_call0]; after_results_simp <;> (try simp only [StableHlo.TRef.ofBuf, StableHlo.TRef.toBuf, cast_eq]) <;> rfl

/-- The guarded gather of the stage's dense transform at each edge's source node. -/
theorem h3_take (V : Valuation τ sig (Elt F)) :
    StableHlo.after hostOps3 V (Proc.devRef .tc main_v46)
      = take128 (V (Proc.devRef .tc main_v45)) (V (Proc.devRef .tc main_v1)) := by
  dsimp only [hostOps3, main_call1_call0]; after_results_simp <;> (try simp only [StableHlo.TRef.ofBuf, StableHlo.TRef.toBuf, cast_eq]) <;> rfl

/-- The guarded gather of the stage's dense transform at each edge's source node. -/
theorem h5_take (V : Valuation τ sig (Elt F)) :
    StableHlo.after hostOps5 V (Proc.devRef .tc main_v57)
      = take128 (V (Proc.devRef .tc main_v56)) (V (Proc.devRef .tc main_v1)) := by
  dsimp only [hostOps5, main_call2_call0]; after_results_simp <;> (try simp only [StableHlo.TRef.ofBuf, StableHlo.TRef.toBuf, cast_eq]) <;> rfl

/-- The guarded gather of the stage's dense transform at each edge's source node. -/
theorem h7_take (V : Valuation τ sig (Elt F)) :
    StableHlo.after hostOps7 V (Proc.devRef .tc main_v68)
      = take16 (V (Proc.devRef .tc main_v67)) (V (Proc.devRef .tc main_v1)) := by
  dsimp only [hostOps7, main_call3_call0]; after_results_simp <;> (try simp only [StableHlo.TRef.ofBuf, StableHlo.TRef.toBuf, cast_eq]) <;> rfl

end Cert.Bridge.Stretch
-- ==== Proof.RefLayers.lean ====
/-
  The reference network, layer by layer: each layer's dense transform as a sum over the hidden features, its
  aggregation as the shared graph-side scatter of the gathered, edge-weighted rows, and its output as
  `act (agg + slc · mm + bias)` read at one node and one feature, with `act` the positive part in layers 1 to 3 and the
  hyperbolic tangent in layer 4. The reference recomputes the degree, its inverse square root, the wrapped indices and
  the edge weights in every layer; each recomputation is the same function of the edge list.
-/
import proofs.«418511_j59657095741762_1_alg».proof.Proof.Gen.ReferenceIdeal.Read
import proofs.«418511_j59657095741762_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.Ref

open Idealize.ShloMosaic Idealize.SL.Sem Cert.ReferenceIdeal.Read Cert.Bridge Idealize.ShloMosaic.ValueIdx

variable {F : FTy → Type} [FloatOps F]

/-! ## Layer 1 -/

theorem src_eq (x1 : (⟨Cert.ReferenceIdeal.S2x800000, .i32⟩ : BufTy).Contents (Elt F)) : val_main_v1 (F := F) x1 = srcOf x1 := rfl
theorem dst_eq (x1 : (⟨Cert.ReferenceIdeal.S2x800000, .i32⟩ : BufTy).Contents (Elt F)) : val_main_v3 (F := F) x1 = dstOf x1 := rfl

theorem dinv1 (x1 : (⟨Cert.ReferenceIdeal.S2x800000, .i32⟩ : BufTy).Contents (Elt F)) : val_main_v16 (F := F) x1 = dinvOf (F := F) x1 := rfl
theorem norm1 (x1 : (⟨Cert.ReferenceIdeal.S2x800000, .i32⟩ : BufTy).Contents (Elt F)) : val_main_v31 (F := F) x1 = normOf (F := F) x1 := rfl
theorem start1 (x1 : (⟨Cert.ReferenceIdeal.S2x800000, .i32⟩ : BufTy).Contents (Elt F)) : val_main_v37 (F := F) x1 = startIdx (srcOf x1) := rfl
theorem raw1 (x1 : (⟨Cert.ReferenceIdeal.S2x800000, .i32⟩ : BufTy).Contents (Elt F)) : val_main_v43 (F := F) x1 = rawIdx (dstOf x1) := rfl
theorem slc1 (x1 : (⟨Cert.ReferenceIdeal.S2x800000, .i32⟩ : BufTy).Contents (Elt F)) : val_main_v47 (F := F) x1 = slcOf (F := F) x1 := rfl

theorem mm1 (x0 : (⟨Cert.ReferenceIdeal.S50000x128, .f32⟩ : BufTy).Contents (Elt Ideal)) (x2 : (⟨Cert.ReferenceIdeal.S128x128, .f32⟩ : BufTy).Contents (Elt Ideal)) (r : Fin 50000) (j : Fin 128) :
    val_main_v4 (F := Ideal) x0 x2 (ix2 r j) = ∑ k : Fin 128, x0 (ix2 r k) * x2 (ix2 k j) := by
  rw [val_main_v4_apply]
  refine Finset.sum_congr rfl fun k _ => ?_
  have el : lidx_main_v4 (ix2 r j) k = ix2 r k :=
    funext fun a => Fin.ext (by match a with | ⟨0, _⟩ => rfl | ⟨1, _⟩ => rfl)
  have er : ridx_main_v4 (ix2 r j) k = ix2 k j :=
    funext fun a => Fin.ext (by match a with | ⟨0, _⟩ => rfl | ⟨1, _⟩ => rfl)
  rw [el, er]

theorem agg1 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x128, .f32⟩ : BufTy).Contents (Elt F)) :
    val_main_v44 (F := F) x0 x1 x2 = aggOf128 (gather128 (val_main_v4 (F := F) x0 x2) x1) x1 := rfl

theorem out1 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (r : Fin 50000) (j : Fin 128) :
    val_main_v55 (F := Ideal) x0 x1 x2 x3 (ix2 r j)
      = max (val_main_v44 (F := Ideal) x0 x1 x2 (ix2 r j) + slcOf (F := Ideal) x1 (ix1 r) * val_main_v4 (F := Ideal) x0 x2 (ix2 r j)
          + x3 (ix1 j)) (Ideal.ofBits .f32 0x00000000#32) := by
  rw [val_main_v55_apply, val_main_v54_apply, val_main_v51_apply, val_main_v50_apply, val_main_v49_apply,
    val_main_v48_apply, val_main_v53_apply, val_main_v52_apply, val_main_call0_v0_apply, val_main_call0_cst_apply,
    slc1]
  have e1 : idx_main_v48 (idx_main_v49 (ix2 r j)) = ix1 r :=
    funext fun a => Fin.ext (by match a with | ⟨0, _⟩ => rfl)
  have e2 : idx_main_v52 (idx_main_v53 (ix2 r j)) = ix1 j :=
    funext fun a => Fin.ext (by match a with | ⟨0, _⟩ => rfl)
  rw [e1, e2]
  rfl

/-! ## Layer 2 -/

theorem dinv2 (x1 : (⟨Cert.ReferenceIdeal.S2x800000, .i32⟩ : BufTy).Contents (Elt F)) : val_main_v68 (F := F) x1 = dinvOf (F := F) x1 := rfl
theorem norm2 (x1 : (⟨Cert.ReferenceIdeal.S2x800000, .i32⟩ : BufTy).Contents (Elt F)) : val_main_v83 (F := F) x1 = normOf (F := F) x1 := rfl
theorem start2 (x1 : (⟨Cert.ReferenceIdeal.S2x800000, .i32⟩ : BufTy).Contents (Elt F)) : val_main_v89 (F := F) x1 = startIdx (srcOf x1) := rfl
theorem raw2 (x1 : (⟨Cert.ReferenceIdeal.S2x800000, .i32⟩ : BufTy).Contents (Elt F)) : val_main_v95 (F := F) x1 = rawIdx (dstOf x1) := rfl
theorem slc2 (x1 : (⟨Cert.ReferenceIdeal.S2x800000, .i32⟩ : BufTy).Contents (Elt F)) : val_main_v99 (F := F) x1 = slcOf (F := F) x1 := rfl

theorem mm2 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (r : Fin 50000) (j : Fin 128) :
    val_main_v56 (F := Ideal) x0 x1 x2 x3 x4 (ix2 r j)
      = ∑ k : Fin 128, val_main_v55 (F := Ideal) x0 x1 x2 x3 (ix2 r k) * x4 (ix2 k j) := by
  rw [val_main_v56_apply]
  refine Finset.sum_congr rfl fun k _ => ?_
  have el : lidx_main_v56 (ix2 r j) k = ix2 r k :=
    funext fun a => Fin.ext (by match a with | ⟨0, _⟩ => rfl | ⟨1, _⟩ => rfl)
  have er : ridx_main_v56 (ix2 r j) k = ix2 k j :=
    funext fun a => Fin.ext (by match a with | ⟨0, _⟩ => rfl | ⟨1, _⟩ => rfl)
  rw [el, er]

theorem agg2 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x128, .f32⟩ : BufTy).Contents (Elt F)) (x3 : (⟨Cert.ReferenceIdeal.S128, .f32⟩ : BufTy).Contents (Elt F)) (x4 : (⟨Cert.ReferenceIdeal.S128x128, .f32⟩ : BufTy).Contents (Elt F)) :
    val_main_v96 (F := F) x0 x1 x2 x3 x4 = aggOf128 (gather128 (val_main_v56 (F := F) x0 x1 x2 x3 x4) x1) x1 := rfl

theorem out2 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (r : Fin 50000) (j : Fin 128) :
    val_main_v107 (F := Ideal) x0 x1 x2 x3 x4 x5 (ix2 r j)
      = max (val_main_v96 (F := Ideal) x0 x1 x2 x3 x4 (ix2 r j) + slcOf (F := Ideal) x1 (ix1 r) * val_main_v56 (F := Ideal) x0 x1 x2 x3 x4 (ix2 r j)
          + x5 (ix1 j)) (Ideal.ofBits .f32 0x00000000#32) := by
  rw [val_main_v107_apply, val_main_v106_apply, val_main_v103_apply, val_main_v102_apply, val_main_v101_apply,
    val_main_v100_apply, val_main_v105_apply, val_main_v104_apply, val_main_call1_v0_apply, val_main_call1_cst_apply,
    slc2]
  have e1 : idx_main_v100 (idx_main_v101 (ix2 r j)) = ix1 r :=
    funext fun a => Fin.ext (by match a with | ⟨0, _⟩ => rfl)
  have e2 : idx_main_v104 (idx_main_v105 (ix2 r j)) = ix1 j :=
    funext fun a => Fin.ext (by match a with | ⟨0, _⟩ => rfl)
  rw [e1, e2]
  rfl

/-! ## Layer 3 -/

theorem dinv3 (x1 : (⟨Cert.ReferenceIdeal.S2x800000, .i32⟩ : BufTy).Contents (Elt F)) : val_main_v120 (F := F) x1 = dinvOf (F := F) x1 := rfl
theorem norm3 (x1 : (⟨Cert.ReferenceIdeal.S2x800000, .i32⟩ : BufTy).Contents (Elt F)) : val_main_v135 (F := F) x1 = normOf (F := F) x1 := rfl
theorem start3 (x1 : (⟨Cert.ReferenceIdeal.S2x800000, .i32⟩ : BufTy).Contents (Elt F)) : val_main_v141 (F := F) x1 = startIdx (srcOf x1) := rfl
theorem raw3 (x1 : (⟨Cert.ReferenceIdeal.S2x800000, .i32⟩ : BufTy).Contents (Elt F)) : val_main_v147 (F := F) x1 = rawIdx (dstOf x1) := rfl
theorem slc3 (x1 : (⟨Cert.ReferenceIdeal.S2x800000, .i32⟩ : BufTy).Contents (Elt F)) : val_main_v151 (F := F) x1 = slcOf (F := F) x1 := rfl

theorem mm3 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (r : Fin 50000) (j : Fin 128) :
    val_main_v108 (F := Ideal) x0 x1 x2 x3 x4 x5 x6 (ix2 r j)
      = ∑ k : Fin 128, val_main_v107 (F := Ideal) x0 x1 x2 x3 x4 x5 (ix2 r k) * x6 (ix2 k j) := by
  rw [val_main_v108_apply]
  refine Finset.sum_congr rfl fun k _ => ?_
  have el : lidx_main_v108 (ix2 r j) k = ix2 r k :=
    funext fun a => Fin.ext (by match a with | ⟨0, _⟩ => rfl | ⟨1, _⟩ => rfl)
  have er : ridx_main_v108 (ix2 r j) k = ix2 k j :=
    funext fun a => Fin.ext (by match a with | ⟨0, _⟩ => rfl | ⟨1, _⟩ => rfl)
  rw [el, er]

theorem agg3 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x128, .f32⟩ : BufTy).Contents (Elt F)) (x3 : (⟨Cert.ReferenceIdeal.S128, .f32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S128x128, .f32⟩ : BufTy).Contents (Elt F)) :
    val_main_v148 (F := F) x0 x1 x2 x3 x4 x5 x6 = aggOf128 (gather128 (val_main_v108 (F := F) x0 x1 x2 x3 x4 x5 x6) x1) x1 := rfl

theorem out3 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (r : Fin 50000) (j : Fin 128) :
    val_main_v159 (F := Ideal) x0 x1 x2 x3 x4 x5 x6 x7 (ix2 r j)
      = max (val_main_v148 (F := Ideal) x0 x1 x2 x3 x4 x5 x6 (ix2 r j) + slcOf (F := Ideal) x1 (ix1 r) * val_main_v108 (F := Ideal) x0 x1 x2 x3 x4 x5 x6 (ix2 r j)
          + x7 (ix1 j)) (Ideal.ofBits .f32 0x00000000#32) := by
  rw [val_main_v159_apply, val_main_v158_apply, val_main_v155_apply, val_main_v154_apply, val_main_v153_apply,
    val_main_v152_apply, val_main_v157_apply, val_main_v156_apply, val_main_call2_v0_apply, val_main_call2_cst_apply,
    slc3]
  have e1 : idx_main_v152 (idx_main_v153 (ix2 r j)) = ix1 r :=
    funext fun a => Fin.ext (by match a with | ⟨0, _⟩ => rfl)
  have e2 : idx_main_v156 (idx_main_v157 (ix2 r j)) = ix1 j :=
    funext fun a => Fin.ext (by match a with | ⟨0, _⟩ => rfl)
  rw [e1, e2]
  rfl

/-! ## Layer 4 -/

theorem dinv4 (x1 : (⟨Cert.ReferenceIdeal.S2x800000, .i32⟩ : BufTy).Contents (Elt F)) : val_main_v172 (F := F) x1 = dinvOf (F := F) x1 := rfl
theorem norm4 (x1 : (⟨Cert.ReferenceIdeal.S2x800000, .i32⟩ : BufTy).Contents (Elt F)) : val_main_v187 (F := F) x1 = normOf (F := F) x1 := rfl
theorem start4 (x1 : (⟨Cert.ReferenceIdeal.S2x800000, .i32⟩ : BufTy).Contents (Elt F)) : val_main_v193 (F := F) x1 = startIdx (srcOf x1) := rfl
theorem raw4 (x1 : (⟨Cert.ReferenceIdeal.S2x800000, .i32⟩ : BufTy).Contents (Elt F)) : val_main_v199 (F := F) x1 = rawIdx (dstOf x1) := rfl
theorem slc4 (x1 : (⟨Cert.ReferenceIdeal.S2x800000, .i32⟩ : BufTy).Contents (Elt F)) : val_main_v203 (F := F) x1 = slcOf (F := F) x1 := rfl

theorem mm4 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x16, .f32⟩ : BufTy).Contents (Elt Ideal)) (r : Fin 50000) (j : Fin 16) :
    val_main_v160 (F := Ideal) x0 x1 x2 x3 x4 x5 x6 x7 x8 (ix2 r j)
      = ∑ k : Fin 128, val_main_v159 (F := Ideal) x0 x1 x2 x3 x4 x5 x6 x7 (ix2 r k) * x8 (ix2 k j) := by
  rw [val_main_v160_apply]
  refine Finset.sum_congr rfl fun k _ => ?_
  have el : lidx_main_v160 (ix2 r j) k = ix2 r k :=
    funext fun a => Fin.ext (by match a with | ⟨0, _⟩ => rfl | ⟨1, _⟩ => rfl)
  have er : ridx_main_v160 (ix2 r j) k = ix2 k j :=
    funext fun a => Fin.ext (by match a with | ⟨0, _⟩ => rfl | ⟨1, _⟩ => rfl)
  rw [el, er]

theorem agg4 (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S128x128, .f32⟩ : BufTy).Contents (Elt F)) (x3 : (⟨Cert.ReferenceIdeal.S128, .f32⟩ : BufTy).Contents (Elt F)) (x4 : (⟨Cert.ReferenceIdeal.S128x128, .f32⟩ : BufTy).Contents (Elt F)) (x5 : (⟨Cert.ReferenceIdeal.S128, .f32⟩ : BufTy).Contents (Elt F)) (x6 : (⟨Cert.ReferenceIdeal.S128x128, .f32⟩ : BufTy).Contents (Elt F)) (x7 : (⟨Cert.ReferenceIdeal.S128, .f32⟩ : BufTy).Contents (Elt F)) (x8 : (⟨Cert.ReferenceIdeal.S128x16, .f32⟩ : BufTy).Contents (Elt F)) :
    val_main_v200 (F := F) x0 x1 x2 x3 x4 x5 x6 x7 x8 = aggOf16 (gather16 (val_main_v160 (F := F) x0 x1 x2 x3 x4 x5 x6 x7 x8) x1) x1 := rfl

theorem out4 (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x16, .f32⟩ : BufTy).Contents (Elt Ideal)) (x9 : (⟨Cert.ReferenceIdeal.S16, .f32⟩ : BufTy).Contents (Elt Ideal)) (r : Fin 50000) (j : Fin 16) :
    val_main_v211 (F := Ideal) x0 x1 x2 x3 x4 x5 x6 x7 x8 x9 (ix2 r j)
      = Ideal.tanh (val_main_v200 (F := Ideal) x0 x1 x2 x3 x4 x5 x6 x7 x8 (ix2 r j) + slcOf (F := Ideal) x1 (ix1 r) * val_main_v160 (F := Ideal) x0 x1 x2 x3 x4 x5 x6 x7 x8 (ix2 r j)
          + x9 (ix1 j)) := by
  rw [val_main_v211_apply, val_main_v210_apply, val_main_v207_apply, val_main_v206_apply, val_main_v205_apply,
    val_main_v204_apply, val_main_v209_apply, val_main_v208_apply, slc4]
  have e1 : idx_main_v204 (idx_main_v205 (ix2 r j)) = ix1 r :=
    funext fun a => Fin.ext (by match a with | ⟨0, _⟩ => rfl)
  have e2 : idx_main_v208 (idx_main_v209 (ix2 r j)) = ix1 j :=
    funext fun a => Fin.ext (by match a with | ⟨0, _⟩ => rfl)
  rw [e1, e2]
  simp only [Ideal.hostUnary_tanh_def, Ideal.addf_def, Ideal.mulf_def]

end Cert.Bridge.Ref

end
-- ==== Proof.RegMm0.lean ====
import proofs.«418511_j59657095741762_1_alg».proof.Proof.Gen.KernelIdeal.Frame
import Idealize.ShloMosaic.Lib.Pipeline.Value
import Idealize.ShloMosaic.Lib.ValueIdx
import Idealize.ShloMosaic.PureOps.Ideal.Laws

/-! # A matmul region's output array, as one function of the region's entry contents

The region stages a block of 5000 rows of the first operand and the whole second operand, multiplies them into a
zero accumulator, and writes the 5000 result rows back; its ten grid points cover the 50000 rows. At the ideal
values the narrowing of the operands is the identity and the accumulation is the exact sum over the contracted
axis, so the output array ends holding, at row r and column j, the sum over k of A r k * B k j. -/

set_option maxRecDepth 16384

noncomputable section

namespace Cert.Bridge.Mm0

open Idealize.ShloMosaic Idealize.ShloMosaic.TcCoe Idealize.SL.Sem Cert.KernelIdeal Cert.KernelIdeal.Gen ValueIdx
open Idealize.ShloMosaic.Pipeline (Dat)

/-! ## The payload at an index: the exact sum over the contracted axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first operand's index at output index y and contraction coordinate k: (y 0, k). -/
abbrev lidx (y : S5000x128.Idx) (k : Fin 128) : S5000x128.Idx := fun a => match a with
  | ⟨0, _⟩ => ⟨(y 0).val, (y 0).isLt⟩
  | ⟨1, _⟩ => ⟨k.val, k.isLt⟩
/-- The second operand's: (k, y 1). -/
abbrev ridx (y : S5000x128.Idx) (k : Fin 128) : S128x128.Idx := fun a => match a with
  | ⟨0, _⟩ => ⟨k.val, k.isLt⟩
  | ⟨1, _⟩ => ⟨(y 1).val, (y 1).isLt⟩

/-- The body's payload at an index of the block: the narrowing is the identity at the ideal values and the product
    into the zero accumulator is the plain sum. -/
theorem pay_apply (x0 : Vec Ideal S5000x128 .f32) (x1 : Vec Ideal S128x128 .f32) (y : S5000x128.Idx) :
    k0_pay1 x0 x1 y = ∑ k : Fin 128, x0 (lidx y k) * x1 (ridx y k) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx y ((contrEquiv1 dot_S5000x128_S128x128_S5000x128_1_0_0_1_n_n 128 rfl rfl).symm k) = lidx y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((contrEquiv1 dot_S5000x128_S128x128_S5000x128_1_0_0_1_n_n 128 rfl rfl).symm k) = ridx y k := funext fun a => Fin.ext (by
    match a with
    | ⟨0, _⟩ => exact (rhs_0 _ _).trans hk
    | ⟨1, _⟩ => exact rhs_1 _ _)
  rw [el, er]
  rfl

/-! ## The whole-array function -/

/-- Row i 0 of A times column i 1 of B, as the exact sum over the contracted axis. -/
abbrev G (A : S50000x128.Idx → Elt Ideal .f32) (B : S128x128.Idx → Elt Ideal .f32) : S50000x128.Idx → Elt Ideal .f32 :=
  fun i => ∑ k : Fin 128, A (ix2 (⟨(i 0).val, idx2_lt0 i⟩ : Fin 50000) k) * B (ix2 k (⟨(i 1).val, idx2_lt1 i⟩ : Fin 128))

theorem hz : (![0, 0] : Fin 2 → Nat) = fun _ => 0 := funext fun a => by fin_cases a <;> rfl

/-- The printed index maps, decided over the grid: the first operand's window and the output's are at block (t, 0),
    the second operand's at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of G of the operand arrays as the region finds them. -/
theorem flushed_eq (c : Dev nD) (t : Fin cfg0.N) :
    (dat0 (F := Ideal) V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext y
  refine (pay_apply (iblk0 V c 0 t) (iblk0 V c 1 t) ((cfg0.win 2).xinj (grid0.coords t) y)).trans ?_
  show _ = G (V c main_arg0) (V c main_arg2) (((cfg0.win 2).blk t).view.emb y)
  refine Finset.sum_congr rfl fun k _ => ?_
  have h0 : iblk0 V c 0 t (lidx ((cfg0.win 2).xinj (grid0.coords t) y) k) = V c main_arg0 (ix2 (⟨((((cfg0.win 2).blk t).view.emb y) 0).val, idx2_lt0 _⟩ : Fin 50000) k) := by
    show V c main_arg0 (((cfg0.win 0).blk t).view.emb (lidx ((cfg0.win 2).xinj (grid0.coords t) y) k)) = _
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : iblk0 V c 1 t (ridx ((cfg0.win 2).xinj (grid0.coords t) y) k) = V c main_arg2 (ix2 k (⟨((((cfg0.win 2).blk t).view.emb y) 1).val, idx2_lt1 _⟩ : Fin 128)) := by
    show V c main_arg2 (((cfg0.win 1).blk t).view.emb (ridx ((cfg0.win 2).xinj (grid0.coords t) y) k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [h0, h1]

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every index of the array is in some point's block: row r is in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e00, e01, e10, e11, e20, e21⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the ten points: G of the operand arrays. -/
theorem final (c : Dev nD) : (dat0 (F := Ideal) V c).arrAt 2 cfg0.N = G (V c main_arg0) (V c main_arg2) :=
  (dat0 (F := Ideal) V c).arrAt_eq_of_cover 2 (G (V c main_arg0) (V c main_arg2)) (fun t _ => flushed_eq V c t) cover

/-- Row r of the output array is row r of the first operand times the second operand. -/
theorem value (c : Dev nD) (r : Fin 50000) (j : Fin 128) :
    (dat0 (F := Ideal) V c).arrAt 2 cfg0.N (ix2 r j) = ∑ k : Fin 128, HMul.hMul (α := EReal) (β := EReal) (V c main_arg0 (ix2 r k)) (V c main_arg2 (ix2 k j)) :=
  (congrFun (final V c) (ix2 r j)).trans rfl

end Cert.Bridge.Mm0

end
-- ==== Proof.RegFused1.lean ====
import proofs.«418511_j59657095741762_1_alg».proof.Proof.Gen.KernelIdeal.Frame
import Idealize.ShloMosaic.Lib.Pipeline.Value
import Idealize.ShloMosaic.Lib.ValueIdx
import Idealize.ShloMosaic.Lib.ValueLayout

/-! # The fused region's output array, index by index

The region reads four arrays — an aggregate `A` and a feature array `H` (both 50000 × 128), a column `S` (50000 × 1)
and a row `B` (1 × 128) — in row blocks of 5000 and writes, whatever those arrays hold,
`out[r, j] = max (A[r, j] + S[r, 0] * H[r, j] + B[0, j]) 0`. -/

set_option maxRecDepth 16384

noncomputable section

namespace Cert.Bridge.Fused1

open Idealize.ShloMosaic Idealize.ShloMosaic.TcCoe Idealize.SL.Sem Cert.KernelIdeal Cert.KernelIdeal.Gen ValueIdx
open Idealize.ShloMosaic.Pipeline (Dat)

/-! ## The body's value at an index of its block -/

/-- A column `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at `(p, q)`: the pointwise operations of the four loaded blocks, the column read at its row and the
    row at its column. -/
theorem pay_apply (x0 x1 : Vec Ideal S5000x128 .f32) (x2 : Vec Ideal S5000x1 .f32) (x3 : Vec Ideal S1x128 .f32)
    (p : Fin 5000) (q : Fin 128) :
    k1_pay1 (F := Ideal) x0 x2 x1 x3 (ix2 p q)
      = max (x0 (ix2 p q) + x2 (ix2 p (0 : Fin 1)) * x1 (ix2 p q) + x3 (ix2 (0 : Fin 1) q)) (Ideal.ofBits .f32 0x00000000#32) := by
  unfold k1_pay1
  simp only [shapeCast_self]
  rw [maximumf_apply, addf_apply, addf_apply, mulf_apply, broadcast_apply, broadcastTo_a1_ab_apply, broadcastTo_1b_ab_apply]
  rfl

/-! ## From blocks to the array -/

variable (V : (c : Dev nD) → (b : Ref sig .tc) → Buf (Elt Ideal) ((c : Thread nD τ).loc b))

theorem zero_offsets : (![0, 0] : Fin 2 → Nat) = fun _ => 0 :=
  funext fun a => match a with | ⟨0, _⟩ => rfl | ⟨1, _⟩ => rfl

/-- The array the region leaves, as one function of the four arrays it reads. -/
abbrev G (A H : S50000x128.Idx → Elt Ideal .f32) (S : S50000x1.Idx → Elt Ideal .f32) (B : S1x128.Idx → Elt Ideal .f32) :
    S50000x128.Idx → Elt Ideal .f32 :=
  fun i => max (A i + S (ix2 (n0 := 50000) (i 0) (0 : Fin 1)) * H i + B (ix2 (0 : Fin 1) (n1 := 128) (i 1))) (Ideal.ofBits .f32 0x00000000#32)

/-- The index maps over the grid: the three row-blocked inputs move with the output's block, which is the point's own;
    the row is read whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G` of the arrays as the region finds them. -/
theorem flushed_eq (c : Dev nD) (t : Fin cfg1.N) :
    (dat1 (F := Ideal) V c).flushed 4 t
      = ((cfg1.win 4).blk t).view.read (Elt Ideal) (G (V c main_v41) (V c main_v34) (V c main_v43) (V c main_v42)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := idx_facts t
  funext y
  obtain ⟨p, q, rfl⟩ : ∃ (p : Fin 5000) (q : Fin 128), y = ix2 p q := ⟨y 0, y 1, eq_ix2 y⟩
  refine (pay_apply (iblk1 V c 0 t) (iblk1 V c 1 t) (iblk1 V c 2 t) (iblk1 V c 3 t) p q).trans ?_
  show _ = G (V c main_v41) (V c main_v34) (V c main_v43) (V c main_v42) (((cfg1.win 4).blk t).view.emb (ix2 p q))
  have h0 : iblk1 V c 0 t (ix2 p q) = V c main_v41 (((cfg1.win 4).blk t).view.emb (ix2 p q)) := by
    show V c main_v41 (((cfg1.win 0).blk t).view.emb (ix2 p q)) = _
    refine congrArg (V c main_v41) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : iblk1 V c 1 t (ix2 p q) = V c main_v34 (((cfg1.win 4).blk t).view.emb (ix2 p q)) := by
    show V c main_v34 (((cfg1.win 1).blk t).view.emb (ix2 p q)) = _
    refine congrArg (V c main_v34) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : iblk1 V c 2 t (ix2 p (0 : Fin 1))
      = V c main_v43 (ix2 (n0 := 50000) ((((cfg1.win 4).blk t).view.emb (ix2 p q)) 0) (0 : Fin 1)) := by
    show V c main_v43 (((cfg1.win 2).blk t).view.emb (ix2 p (0 : Fin 1))) = _
    refine congrArg (V c main_v43) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : iblk1 V c 3 t (ix2 (0 : Fin 1) q)
      = V c main_v42 (ix2 (0 : Fin 1) (n1 := 128) ((((cfg1.win 4).blk t).view.emb (ix2 p q)) 1)) := by
    show V c main_v42 (((cfg1.win 3).blk t).view.emb (ix2 (0 : Fin 1) q)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]

/-- An index of the array is in point `t`'s block iff each coordinate is in the block's range on its axis. -/
theorem mem_blk (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every row block is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The blocks cover the array: row `r` is in the block of the point `r / 5000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array after the region: `G` of the arrays as the region finds them. -/
theorem final (c : Dev nD) :
    (dat1 (F := Ideal) V c).arrAt 4 cfg1.N = G (V c main_v41) (V c main_v34) (V c main_v43) (V c main_v42) :=
  (dat1 V c).arrAt_eq_of_cover 4 _ (fun t _ => flushed_eq V c t) cover

/-- The region's output at `(r, j)`, whatever the entry contents. -/
theorem value (c : Dev nD) (r : Fin 50000) (j : Fin 128) :
    (dat1 (F := Ideal) V c).arrAt 4 cfg1.N (ix2 r j)
      = max ((by exact V c main_v41 (ix2 r j) : Elt Ideal .f32) + (by exact V c main_v43 (ix2 r (0 : Fin 1)) : Elt Ideal .f32) * (by exact V c main_v34 (ix2 r j) : Elt Ideal .f32)
          + (by exact V c main_v42 (ix2 (0 : Fin 1) j) : Elt Ideal .f32)) (Ideal.ofBits .f32 0x00000000#32) :=
  congrFun (final V c) (ix2 r j)

/-- The same, with the four arrays named: whatever they are known to be, the output is the formula of them. -/
theorem value_of (c : Dev nD) (A H : S50000x128.Idx → Elt Ideal .f32) (S : S50000x1.Idx → Elt Ideal .f32)
    (B : S1x128.Idx → Elt Ideal .f32) (hA : V c main_v41 = A) (hH : V c main_v34 = H) (hS : V c main_v43 = S)
    (hB : V c main_v42 = B) (r : Fin 50000) (j : Fin 128) :
    (dat1 (F := Ideal) V c).arrAt 4 cfg1.N (ix2 r j)
      = max (A (ix2 r j) + S (ix2 r (0 : Fin 1)) * H (ix2 r j) + B (ix2 (0 : Fin 1) j)) (Ideal.ofBits .f32 0x00000000#32) := by
  subst hA hH hS hB
  exact value V c r j

end Cert.Bridge.Fused1

end
-- ==== Proof.Layer1.lean ====
/-
  Layer 1 of the kernel program computes what layer 1 of the reference computes.

  Write `x0` for the node features, `x1` for the edge list, `x2`, `x3` for the layer's weight and bias. The first host
  stretch leaves the graph quantities of the edge list: source row, destination row, edge weights `norm`, self-loop
  coefficients `slc`. The first region leaves `h = x0 · x2` (a sum over the 128 input features, exact at the extended
  reals). The next stretch gathers the rows of `h` at the edges' sources — under the precondition every source index
  is in range, so the masked gather is the plain one —, weighs them, and sums them onto the destinations: `agg`. The
  second region leaves `max (agg + slc · h + x3) 0`, row by row. Each of these is the reference's stage of the same
  arguments, read off its run.
-/
import proofs.«418511_j59657095741762_1_alg».proof.Proof.Gen.KernelIdeal.Frame
import proofs.«418511_j59657095741762_1_alg».proof.Proof.Gen.ReferenceIdeal.Read
import proofs.«418511_j59657095741762_1_alg».proof.Proof.Skip
import proofs.«418511_j59657095741762_1_alg».proof.Proof.Levels
import proofs.«418511_j59657095741762_1_alg».proof.Proof.Spec
import proofs.«418511_j59657095741762_1_alg».proof.Proof.Stretch
import proofs.«418511_j59657095741762_1_alg».proof.Proof.Take
import proofs.«418511_j59657095741762_1_alg».proof.Proof.RefLayers
import proofs.«418511_j59657095741762_1_alg».proof.Proof.RegMm0
import proofs.«418511_j59657095741762_1_alg».proof.Proof.RegFused1
import Idealize.ShloMosaic.Lib.ValueIdx
import Idealize.ShloMosaic.Lib.ValueLayout
import Idealize.ShloMosaic.Lib.Pipeline.Value

set_option maxRecDepth 16384

noncomputable section

namespace Cert.Bridge.Layers

open Idealize.ShloMosaic Idealize.ShloMosaic.TcCoe Idealize.SL.Sem Cert.KernelIdeal Cert.KernelIdeal.Gen Cert.KernelIdeal.Facts₀ Cert.KernelIdeal.Facts
open Cert.Bridge Cert.Bridge.Levels Cert.Bridge.Stretch Cert.Bridge.Skip ValueIdx
open Cert.ReferenceIdeal.Read (val_main_v4 val_main_v44 val_main_v55 val_main_v56 val_main_v96 val_main_v107 val_main_v108 val_main_v148 val_main_v159 val_main_v160 val_main_v200 val_main_v211)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-- A vector `[a]` recast as a column `[a, 1]` reads, at `(i, u)`, the vector at `i`. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The graph quantities, as the first stretch leaves them -/

theorem src_at1 : W1 m ρ c (Proc.devRef .tc main_v1) = srcOf x1 := h0_v1 (W0 m ρ c)
theorem dst_at1 : W1 m ρ c (Proc.devRef .tc main_v3) = dstOf x1 := h0_v3 (W0 m ρ c)
theorem norm_at1 : W1 m ρ c (Proc.devRef .tc main_v30) = normOf (F := Ideal) x1 := h0_v30 (W0 m ρ c)
theorem slc_at1 : W1 m ρ c (Proc.devRef .tc main_v33) = slcOf (F := Ideal) x1 := h0_v33 (W0 m ρ c)

/-! ## Layer 1 -/

/-- The dense transform: row `r` of the region's output is row `r` of `x0` times `x2`. -/
theorem mm1 : W2 m ρ c (Proc.devRef .tc main_v34) = val_main_v4 (F := Ideal) x0 x2 := by
  funext i
  obtain ⟨r, j, rfl⟩ : ∃ (r : Fin 50000) (j : Fin 128), i = ix2 r j := ⟨i 0, i 1, eq_ix2 i⟩
  rw [Ref.mm1]
  have h2 : W2 m ρ c (Proc.devRef .tc main_v34) = (dat0 (V1 m ρ) c).arrAt 2 cfg0.N := W2_arr m ρ c 2
  rw [h2, Mm0.value]
  have e0 : V1 m ρ c main_arg0 = x0 := keep1 m ρ c main_arg0 (by decide)
  have e2 : V1 m ρ c main_arg2 = x2 := keep1 m ρ c main_arg2 (by decide)
  rw [e0, e2]

/-- The rows of the transform at the edges' sources: every source is in range, so nothing is filled. -/
theorem take1 (hpre : Cert.Pre_KernelIdeal m) :
    W3 m ρ c (Proc.devRef .tc main_v35) = gather128 (F := Ideal) (val_main_v4 (F := Ideal) x0 x2) x1 := by
  have h := h1_take (W2 m ρ c)
  have e1 : W2 m ρ c (Proc.devRef .tc main_v1) = srcOf x1 := (keep2 m ρ c main_v1 (by decide)).trans (src_at1 m ρ c)
  rw [mm1 m ρ c, e1] at h
  exact h.trans (take128_of_pre m hpre c _)

/-- The aggregation: the weighted rows summed onto the edges' destinations. -/
theorem agg1 (hpre : Cert.Pre_KernelIdeal m) :
    W4 m ρ c (Proc.devRef .tc main_v41) = val_main_v44 (F := Ideal) x0 x1 x2 := by
  have h := h1_1_agg (W3 m ρ c)
  have e3 : W3 m ρ c (Proc.devRef .tc main_v3) = dstOf x1 :=
    (skip_hostOps1 (W2 m ρ c) main_v3 (by decide)).trans ((keep2 m ρ c main_v3 (by decide)).trans (dst_at1 m ρ c))
  have e30 : W3 m ρ c (Proc.devRef .tc main_v30) = normOf (F := Ideal) x1 :=
    (skip_hostOps1 (W2 m ρ c) main_v30 (by decide)).trans ((keep2 m ρ c main_v30 (by decide)).trans (norm_at1 m ρ c))
  rw [take1 m ρ c hpre, e3, e30] at h
  rw [Ref.agg1]
  exact h

/-- The layer's output: `max (agg + slc · h + bias) 0` at every node and feature. -/
theorem out1 (hpre : Cert.Pre_KernelIdeal m) :
    W5 m ρ c (Proc.devRef .tc main_v44) = val_main_v55 (F := Ideal) x0 x1 x2 x3 := by
  funext i
  obtain ⟨r, j, rfl⟩ : ∃ (r : Fin 50000) (j : Fin 128), i = ix2 r j := ⟨i 0, i 1, eq_ix2 i⟩
  rw [Ref.out1]
  have h5 : W5 m ρ c (Proc.devRef .tc main_v44) = (dat1 (V4 m ρ) c).arrAt 4 cfg1.N := W5_arr m ρ c 4
  have hA : V4 m ρ c main_v41 = val_main_v44 (F := Ideal) x0 x1 x2 := agg1 m ρ c hpre
  have hH : V4 m ρ c main_v34 = val_main_v4 (F := Ideal) x0 x2 :=
    (keep4 m ρ c main_v34 (by decide) (by decide)).trans (mm1 m ρ c)
  have e33 : W3 m ρ c (Proc.devRef .tc main_v33) = slcOf (F := Ideal) x1 :=
    (skip_hostOps1 (W2 m ρ c) main_v33 (by decide)).trans ((keep2 m ρ c main_v33 (by decide)).trans (slc_at1 m ρ c))
  have ea3 : W3 m ρ c (Proc.devRef .tc main_arg3) = x3 :=
    (skip_hostOps1 (W2 m ρ c) main_arg3 (by decide)).trans ((keep2 m ρ c main_arg3 (by decide)).trans (keep1 m ρ c main_arg3 (by decide)))
  have hS : V4 m ρ c main_v43 = shapeCast S50000x1 (slcOf (F := Ideal) x1) Facts₀.shapeCasts_S50000_S50000x1 := by
    have h := h1_1_slc2d (W3 m ρ c)
    rw [e33] at h
    exact h
  have hB : V4 m ρ c main_v42 = shapeCast S1x128 x3 Facts₀.shapeCasts_S128_S1x128 := by
    have h := h1_1_b2d (W3 m ρ c)
    rw [ea3] at h
    exact h
  rw [h5, Fused1.value_of (V4 m ρ) c _ _ _ _ hA hH hS hB r j, colCast_apply, shapeCast_a_1a_apply]

end Cert.Bridge.Layers

end
-- ==== Proof.RegMm2.lean ====
import proofs.«418511_j59657095741762_1_alg».proof.Proof.Gen.KernelIdeal.Frame
import Idealize.ShloMosaic.Lib.Pipeline.Value
import Idealize.ShloMosaic.Lib.ValueIdx
import Idealize.ShloMosaic.PureOps.Ideal.Laws

/-! # A matmul region's output array, as one function of the region's entry contents

The region stages a block of 5000 rows of the first operand and the whole second operand, multiplies them into a
zero accumulator, and writes the 5000 result rows back; its ten grid points cover the 50000 rows. At the ideal
values the narrowing of the operands is the identity and the accumulation is the exact sum over the contracted
axis, so the output array ends holding, at row r and column j, the sum over k of A r k * B k j. -/

set_option maxRecDepth 16384

noncomputable section

namespace Cert.Bridge.Mm2

open Idealize.ShloMosaic Idealize.ShloMosaic.TcCoe Idealize.SL.Sem Cert.KernelIdeal Cert.KernelIdeal.Gen ValueIdx
open Idealize.ShloMosaic.Pipeline (Dat)

/-! ## The payload at an index: the exact sum over the contracted axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first operand's index at output index y and contraction coordinate k: (y 0, k). -/
abbrev lidx (y : S5000x128.Idx) (k : Fin 128) : S5000x128.Idx := fun a => match a with
  | ⟨0, _⟩ => ⟨(y 0).val, (y 0).isLt⟩
  | ⟨1, _⟩ => ⟨k.val, k.isLt⟩
/-- The second operand's: (k, y 1). -/
abbrev ridx (y : S5000x128.Idx) (k : Fin 128) : S128x128.Idx := fun a => match a with
  | ⟨0, _⟩ => ⟨k.val, k.isLt⟩
  | ⟨1, _⟩ => ⟨(y 1).val, (y 1).isLt⟩

/-- The body's payload at an index of the block: the narrowing is the identity at the ideal values and the product
    into the zero accumulator is the plain sum. -/
theorem pay_apply (x0 : Vec Ideal S5000x128 .f32) (x1 : Vec Ideal S128x128 .f32) (y : S5000x128.Idx) :
    k2_pay1 x0 x1 y = ∑ k : Fin 128, x0 (lidx y k) * x1 (ridx y k) := by
  unfold k2_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx y ((contrEquiv1 dot_S5000x128_S128x128_S5000x128_1_0_0_1_n_n 128 rfl rfl).symm k) = lidx y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((contrEquiv1 dot_S5000x128_S128x128_S5000x128_1_0_0_1_n_n 128 rfl rfl).symm k) = ridx y k := funext fun a => Fin.ext (by
    match a with
    | ⟨0, _⟩ => exact (rhs_0 _ _).trans hk
    | ⟨1, _⟩ => exact rhs_1 _ _)
  rw [el, er]
  rfl

/-! ## The whole-array function -/

/-- Row i 0 of A times column i 1 of B, as the exact sum over the contracted axis. -/
abbrev G (A : S50000x128.Idx → Elt Ideal .f32) (B : S128x128.Idx → Elt Ideal .f32) : S50000x128.Idx → Elt Ideal .f32 :=
  fun i => ∑ k : Fin 128, A (ix2 (⟨(i 0).val, idx2_lt0 i⟩ : Fin 50000) k) * B (ix2 k (⟨(i 1).val, idx2_lt1 i⟩ : Fin 128))

theorem hz : (![0, 0] : Fin 2 → Nat) = fun _ => 0 := funext fun a => by fin_cases a <;> rfl

/-- The printed index maps, decided over the grid: the first operand's window and the output's are at block (t, 0),
    the second operand's at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- WHAT POINT t WRITES BACK is block t of G of the operand arrays as the region finds them. -/
theorem flushed_eq (c : Dev nD) (t : Fin cfg2.N) :
    (dat2 (F := Ideal) V c).flushed 2 t = ((cfg2.win 2).blk t).view.read (Elt Ideal) (G (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext y
  refine (pay_apply (iblk2 V c 0 t) (iblk2 V c 1 t) ((cfg2.win 2).xinj (grid2.coords t) y)).trans ?_
  show _ = G (V c main_v44) (V c main_arg4) (((cfg2.win 2).blk t).view.emb y)
  refine Finset.sum_congr rfl fun k _ => ?_
  have h0 : iblk2 V c 0 t (lidx ((cfg2.win 2).xinj (grid2.coords t) y) k) = V c main_v44 (ix2 (⟨((((cfg2.win 2).blk t).view.emb y) 0).val, idx2_lt0 _⟩ : Fin 50000) k) := by
    show V c main_v44 (((cfg2.win 0).blk t).view.emb (lidx ((cfg2.win 2).xinj (grid2.coords t) y) k)) = _
    refine congrArg (V c main_v44) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 128 + 1 * k.val = k.val; omega
  have h1 : iblk2 V c 1 t (ridx ((cfg2.win 2).xinj (grid2.coords t) y) k) = V c main_arg4 (ix2 k (⟨((((cfg2.win 2).blk t).view.emb y) 1).val, idx2_lt1 _⟩ : Fin 128)) := by
    show V c main_arg4 (((cfg2.win 1).blk t).view.emb (ridx ((cfg2.win 2).xinj (grid2.coords t) y) k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega
  rw [h0, h1]

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the array is in some point's block: row r is in the block of point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e00, e01, e10, e11, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE ARRAY after the ten points: G of the operand arrays. -/
theorem final (c : Dev nD) : (dat2 (F := Ideal) V c).arrAt 2 cfg2.N = G (V c main_v44) (V c main_arg4) :=
  (dat2 (F := Ideal) V c).arrAt_eq_of_cover 2 (G (V c main_v44) (V c main_arg4)) (fun t _ => flushed_eq V c t) cover

/-- Row r of the output array is row r of the first operand times the second operand. -/
theorem value (c : Dev nD) (r : Fin 50000) (j : Fin 128) :
    (dat2 (F := Ideal) V c).arrAt 2 cfg2.N (ix2 r j) = ∑ k : Fin 128, HMul.hMul (α := EReal) (β := EReal) (V c main_v44 (ix2 r k)) (V c main_arg4 (ix2 k j)) :=
  (congrFun (final V c) (ix2 r j)).trans rfl

end Cert.Bridge.Mm2

end
-- ==== Proof.RegFused3.lean ====
import proofs.«418511_j59657095741762_1_alg».proof.Proof.Gen.KernelIdeal.Frame
import Idealize.ShloMosaic.Lib.Pipeline.Value
import Idealize.ShloMosaic.Lib.ValueIdx
import Idealize.ShloMosaic.Lib.ValueLayout

/-! # The fused region's output array, index by index

The region reads four arrays — an aggregate `A` and a feature array `H` (both 50000 × 128), a column `S` (50000 × 1)
and a row `B` (1 × 128) — in row blocks of 5000 and writes, whatever those arrays hold,
`out[r, j] = max (A[r, j] + S[r, 0] * H[r, j] + B[0, j]) 0`. -/

set_option maxRecDepth 16384

noncomputable section

namespace Cert.Bridge.Fused3

open Idealize.ShloMosaic Idealize.ShloMosaic.TcCoe Idealize.SL.Sem Cert.KernelIdeal Cert.KernelIdeal.Gen ValueIdx
open Idealize.ShloMosaic.Pipeline (Dat)

/-! ## The body's value at an index of its block -/

/-- A column `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at `(p, q)`: the pointwise operations of the four loaded blocks, the column read at its row and the
    row at its column. -/
theorem pay_apply (x0 x1 : Vec Ideal S5000x128 .f32) (x2 : Vec Ideal S5000x1 .f32) (x3 : Vec Ideal S1x128 .f32)
    (p : Fin 5000) (q : Fin 128) :
    k3_pay1 (F := Ideal) x0 x2 x1 x3 (ix2 p q)
      = max (x0 (ix2 p q) + x2 (ix2 p (0 : Fin 1)) * x1 (ix2 p q) + x3 (ix2 (0 : Fin 1) q)) (Ideal.ofBits .f32 0x00000000#32) := by
  unfold k3_pay1
  simp only [shapeCast_self]
  rw [maximumf_apply, addf_apply, addf_apply, mulf_apply, broadcast_apply, broadcastTo_a1_ab_apply, broadcastTo_1b_ab_apply]
  rfl

/-! ## From blocks to the array -/

variable (V : (c : Dev nD) → (b : Ref sig .tc) → Buf (Elt Ideal) ((c : Thread nD τ).loc b))

theorem zero_offsets : (![0, 0] : Fin 2 → Nat) = fun _ => 0 :=
  funext fun a => match a with | ⟨0, _⟩ => rfl | ⟨1, _⟩ => rfl

/-- The array the region leaves, as one function of the four arrays it reads. -/
abbrev G (A H : S50000x128.Idx → Elt Ideal .f32) (S : S50000x1.Idx → Elt Ideal .f32) (B : S1x128.Idx → Elt Ideal .f32) :
    S50000x128.Idx → Elt Ideal .f32 :=
  fun i => max (A i + S (ix2 (n0 := 50000) (i 0) (0 : Fin 1)) * H i + B (ix2 (0 : Fin 1) (n1 := 128) (i 1))) (Ideal.ofBits .f32 0x00000000#32)

/-- The index maps over the grid: the three row-blocked inputs move with the output's block, which is the point's own;
    the row is read whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of `G` of the arrays as the region finds them. -/
theorem flushed_eq (c : Dev nD) (t : Fin cfg3.N) :
    (dat3 (F := Ideal) V c).flushed 4 t
      = ((cfg3.win 4).blk t).view.read (Elt Ideal) (G (V c main_v52) (V c main_v45) (V c main_v54) (V c main_v53)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := idx_facts t
  funext y
  obtain ⟨p, q, rfl⟩ : ∃ (p : Fin 5000) (q : Fin 128), y = ix2 p q := ⟨y 0, y 1, eq_ix2 y⟩
  refine (pay_apply (iblk3 V c 0 t) (iblk3 V c 1 t) (iblk3 V c 2 t) (iblk3 V c 3 t) p q).trans ?_
  show _ = G (V c main_v52) (V c main_v45) (V c main_v54) (V c main_v53) (((cfg3.win 4).blk t).view.emb (ix2 p q))
  have h0 : iblk3 V c 0 t (ix2 p q) = V c main_v52 (((cfg3.win 4).blk t).view.emb (ix2 p q)) := by
    show V c main_v52 (((cfg3.win 0).blk t).view.emb (ix2 p q)) = _
    refine congrArg (V c main_v52) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : iblk3 V c 1 t (ix2 p q) = V c main_v45 (((cfg3.win 4).blk t).view.emb (ix2 p q)) := by
    show V c main_v45 (((cfg3.win 1).blk t).view.emb (ix2 p q)) = _
    refine congrArg (V c main_v45) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h2 : iblk3 V c 2 t (ix2 p (0 : Fin 1))
      = V c main_v54 (ix2 (n0 := 50000) ((((cfg3.win 4).blk t).view.emb (ix2 p q)) 0) (0 : Fin 1)) := by
    show V c main_v54 (((cfg3.win 2).blk t).view.emb (ix2 p (0 : Fin 1))) = _
    refine congrArg (V c main_v54) (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : iblk3 V c 3 t (ix2 (0 : Fin 1) q)
      = V c main_v53 (ix2 (0 : Fin 1) (n1 := 128) ((((cfg3.win 4).blk t).view.emb (ix2 p q)) 1)) := by
    show V c main_v53 (((cfg3.win 3).blk t).view.emb (ix2 (0 : Fin 1) q)) = _
    refine congrArg (V c main_v53) (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega
  rw [h0, h1, h2, h3]

/-- An index of the array is in point `t`'s block iff each coordinate is in the block's range on its axis. -/
theorem mem_blk (t : Fin cfg3.N) (i : S50000x128.Idx) :
    i ∈ ((cfg3.win 4).blk t).view.set
      ↔ ∀ a : Fin 2, win3_4.index t a * S5000x128.size a ≤ (i a).val ∧ (i a).val < win3_4.index t a * S5000x128.size a + S5000x128.size a := by
  show i ∈ ((View.whole main_v55).slice (win3_4.rect t)).set ↔ _
  rw [View.set_slice_whole, Rect.mem_set_unit]
  exact Iff.rfl

/-- Every row block is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

/-- The blocks cover the array: row `r` is in the block of the point `r / 5000`. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The array after the region: `G` of the arrays as the region finds them. -/
theorem final (c : Dev nD) :
    (dat3 (F := Ideal) V c).arrAt 4 cfg3.N = G (V c main_v52) (V c main_v45) (V c main_v54) (V c main_v53) :=
  (dat3 V c).arrAt_eq_of_cover 4 _ (fun t _ => flushed_eq V c t) cover

/-- The region's output at `(r, j)`, whatever the entry contents. -/
theorem value (c : Dev nD) (r : Fin 50000) (j : Fin 128) :
    (dat3 (F := Ideal) V c).arrAt 4 cfg3.N (ix2 r j)
      = max ((by exact V c main_v52 (ix2 r j) : Elt Ideal .f32) + (by exact V c main_v54 (ix2 r (0 : Fin 1)) : Elt Ideal .f32) * (by exact V c main_v45 (ix2 r j) : Elt Ideal .f32)
          + (by exact V c main_v53 (ix2 (0 : Fin 1) j) : Elt Ideal .f32)) (Ideal.ofBits .f32 0x00000000#32) :=
  congrFun (final V c) (ix2 r j)

/-- The same, with the four arrays named: whatever they are known to be, the output is the formula of them. -/
theorem value_of (c : Dev nD) (A H : S50000x128.Idx → Elt Ideal .f32) (S : S50000x1.Idx → Elt Ideal .f32)
    (B : S1x128.Idx → Elt Ideal .f32) (hA : V c main_v52 = A) (hH : V c main_v45 = H) (hS : V c main_v54 = S)
    (hB : V c main_v53 = B) (r : Fin 50000) (j : Fin 128) :
    (dat3 (F := Ideal) V c).arrAt 4 cfg3.N (ix2 r j)
      = max (A (ix2 r j) + S (ix2 r (0 : Fin 1)) * H (ix2 r j) + B (ix2 (0 : Fin 1) j)) (Ideal.ofBits .f32 0x00000000#32) := by
  subst hA hH hS hB
  exact value V c r j

end Cert.Bridge.Fused3

end
-- ==== Proof.Layer2.lean ====
/-
  Layer 2 of the kernel program computes what layer 2 of the reference computes, given that layer 1's output buffer
  holds the reference's layer-1 output `y1`.

  With `x4`, `x5` the layer's weight and bias: the third region leaves `h = y1 · x4`; the stretch after it gathers the
  rows of `h` at the edges' sources (all in range under the precondition), weighs them by the edge weights the first
  stretch left, and sums them onto the destinations; the fourth region leaves `max (agg + slc · h + x5) 0`. The graph
  quantities are still what the first stretch wrote: nothing in between writes them.
-/
import proofs.«418511_j59657095741762_1_alg».proof.Proof.Gen.KernelIdeal.Frame
import proofs.«418511_j59657095741762_1_alg».proof.Proof.Gen.ReferenceIdeal.Read
import proofs.«418511_j59657095741762_1_alg».proof.Proof.Skip
import proofs.«418511_j59657095741762_1_alg».proof.Proof.Levels
import proofs.«418511_j59657095741762_1_alg».proof.Proof.Spec
import proofs.«418511_j59657095741762_1_alg».proof.Proof.Stretch
import proofs.«418511_j59657095741762_1_alg».proof.Proof.Take
import proofs.«418511_j59657095741762_1_alg».proof.Proof.RefLayers
import proofs.«418511_j59657095741762_1_alg».proof.Proof.RegMm2
import proofs.«418511_j59657095741762_1_alg».proof.Proof.RegFused3
import proofs.«418511_j59657095741762_1_alg».proof.Proof.Layer1
import Idealize.ShloMosaic.Lib.ValueIdx
import Idealize.ShloMosaic.Lib.ValueLayout
import Idealize.ShloMosaic.Lib.Pipeline.Value

set_option maxRecDepth 16384

noncomputable section

namespace Cert.Bridge.Layers

open Idealize.ShloMosaic Idealize.ShloMosaic.TcCoe Idealize.SL.Sem Cert.KernelIdeal Cert.KernelIdeal.Gen Cert.KernelIdeal.Facts₀ Cert.KernelIdeal.Facts
open Cert.Bridge Cert.Bridge.Levels Cert.Bridge.Stretch Cert.Bridge.Skip ValueIdx
open Cert.ReferenceIdeal.Read (val_main_v4 val_main_v44 val_main_v55 val_main_v56 val_main_v96 val_main_v107 val_main_v108 val_main_v148 val_main_v159 val_main_v160 val_main_v200 val_main_v211)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## Layer 2 -/

/-- The dense transform: row `r` of the region's output is row `r` of the previous layer's output times `x4`. -/
theorem mm2 (hin : W5 m ρ c (Proc.devRef .tc main_v44) = val_main_v55 (F := Ideal) x0 x1 x2 x3) :
    W6 m ρ c (Proc.devRef .tc main_v45) = val_main_v56 (F := Ideal) x0 x1 x2 x3 x4 := by
  funext i
  obtain ⟨r, j, rfl⟩ : ∃ (r : Fin 50000) (j : Fin 128), i = ix2 r j := ⟨i 0, i 1, eq_ix2 i⟩
  rw [Ref.mm2]
  have h6 : W6 m ρ c (Proc.devRef .tc main_v45) = (dat2 (V5 m ρ) c).arrAt 2 cfg2.N := W6_arr m ρ c 2
  rw [h6, Mm2.value]
  have ein : V5 m ρ c main_v44 = val_main_v55 (F := Ideal) x0 x1 x2 x3 := hin
  have e4 : V5 m ρ c main_arg4 = x4 :=
    (W5_of_ne m ρ c main_arg4 (by decide)).trans ((keep4 m ρ c main_arg4 (by decide) (by decide)).trans
      ((keep2 m ρ c main_arg4 (by decide)).trans (keep1 m ρ c main_arg4 (by decide))))
  rw [ein, e4]

/-- The rows of the transform at the edges' sources. -/
theorem take2 (hpre : Cert.Pre_KernelIdeal m)
    (hin : W5 m ρ c (Proc.devRef .tc main_v44) = val_main_v55 (F := Ideal) x0 x1 x2 x3) :
    W7 m ρ c (Proc.devRef .tc main_v46) = gather128 (F := Ideal) (val_main_v56 (F := Ideal) x0 x1 x2 x3 x4) x1 := by
  have h := h3_take (W6 m ρ c)
  have e1 : W6 m ρ c (Proc.devRef .tc main_v1) = srcOf x1 :=
    (carried6 m ρ c main_v1 (by decide) (by decide) (by decide) (by decide) (by decide)).trans (src_at1 m ρ c)
  rw [mm2 m ρ c hin, e1] at h
  exact h.trans (take128_of_pre m hpre c _)

/-- The aggregation: the weighted rows summed onto the edges' destinations. -/
theorem agg2 (hpre : Cert.Pre_KernelIdeal m)
    (hin : W5 m ρ c (Proc.devRef .tc main_v44) = val_main_v55 (F := Ideal) x0 x1 x2 x3) :
    W8 m ρ c (Proc.devRef .tc main_v52) = val_main_v96 (F := Ideal) x0 x1 x2 x3 x4 := by
  have h := h3_1_agg (W7 m ρ c)
  have e3 : W7 m ρ c (Proc.devRef .tc main_v3) = dstOf x1 :=
    (skip_hostOps3 (W6 m ρ c) main_v3 (by decide)).trans
      ((carried6 m ρ c main_v3 (by decide) (by decide) (by decide) (by decide) (by decide)).trans (dst_at1 m ρ c))
  have e30 : W7 m ρ c (Proc.devRef .tc main_v30) = normOf (F := Ideal) x1 :=
    (skip_hostOps3 (W6 m ρ c) main_v30 (by decide)).trans
      ((carried6 m ρ c main_v30 (by decide) (by decide) (by decide) (by decide) (by decide)).trans (norm_at1 m ρ c))
  rw [take2 m ρ c hpre hin, e3, e30] at h
  rw [Ref.agg2]
  exact h

/-- The layer's output: `max (agg + slc · h + bias) 0` at every node and feature. -/
theorem out2 (hpre : Cert.Pre_KernelIdeal m)
    (hin : W5 m ρ c (Proc.devRef .tc main_v44) = val_main_v55 (F := Ideal) x0 x1 x2 x3) :
    W9 m ρ c (Proc.devRef .tc main_v55) = val_main_v107 (F := Ideal) x0 x1 x2 x3 x4 x5 := by
  funext i
  obtain ⟨r, j, rfl⟩ : ∃ (r : Fin 50000) (j : Fin 128), i = ix2 r j := ⟨i 0, i 1, eq_ix2 i⟩
  rw [Ref.out2]
  have h9 : W9 m ρ c (Proc.devRef .tc main_v55) = (dat3 (V8 m ρ) c).arrAt 4 cfg3.N := W9_arr m ρ c 4
  have hA : V8 m ρ c main_v52 = val_main_v96 (F := Ideal) x0 x1 x2 x3 x4 := agg2 m ρ c hpre hin
  have hH : V8 m ρ c main_v45 = val_main_v56 (F := Ideal) x0 x1 x2 x3 x4 :=
    (keep8 m ρ c main_v45 (by decide) (by decide)).trans (mm2 m ρ c hin)
  have e33 : W7 m ρ c (Proc.devRef .tc main_v33) = slcOf (F := Ideal) x1 :=
    (skip_hostOps3 (W6 m ρ c) main_v33 (by decide)).trans
      ((carried6 m ρ c main_v33 (by decide) (by decide) (by decide) (by decide) (by decide)).trans (slc_at1 m ρ c))
  have ea5 : W7 m ρ c (Proc.devRef .tc main_arg5) = x5 :=
    (skip_hostOps3 (W6 m ρ c) main_arg5 (by decide)).trans
      ((carried6 m ρ c main_arg5 (by decide) (by decide) (by decide) (by decide) (by decide)).trans (keep1 m ρ c main_arg5 (by decide)))
  have hS : V8 m ρ c main_v54 = shapeCast S50000x1 (slcOf (F := Ideal) x1) Facts₀.shapeCasts_S50000_S50000x1 := by
    have h := h3_1_slc2d (W7 m ρ c)
    rw [e33] at h
    exact h
  have hB : V8 m ρ c main_v53 = shapeCast S1x128 x5 Facts₀.shapeCasts_S128_S1x128 := by
    have h := h3_1_b2d (W7 m ρ c)
    rw [ea5] at h
    exact h
  rw [h9, Fused3.value_of (V8 m ρ) c _ _ _ _ hA hH hS hB r j, colCast_apply, shapeCast_a_1a_apply]

end Cert.Bridge.Layers

end
-- ==== Proof.RegMm4.lean ====
import proofs.«418511_j59657095741762_1_alg».proof.Proof.Gen.KernelIdeal.Frame
import Idealize.ShloMosaic.Lib.Pipeline.Value
import Idealize.ShloMosaic.Lib.ValueIdx
import Idealize.ShloMosaic.PureOps.Ideal.Laws

/-! # A matmul region's output array, as one function of the region's entry contents

The region stages a block of 5000 rows of the first operand and the whole second operand, multiplies them into a
zero accumulator, and writes the 5000 result rows back; its ten grid points cover the 50000 rows. At the ideal
values the narrowing of the operands is the identity and the accumulation is the exact sum over the contracted
axis, so the output array ends holding, at row r and column j, the sum over k of A r k * B k j. -/

set_option maxRecDepth 16384

noncomputable section

namespace Cert.Bridge.Mm4

open Idealize.ShloMosaic Idealize.ShloMosaic.TcCoe Idealize.SL.Sem Cert.KernelIdeal Cert.KernelIdeal.Gen ValueIdx
open Idealize.ShloMosaic.Pipeline (Dat)

/-! ## The payload at an index: the exact sum over the contracted axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first operand's index at output index y and contraction coordinate k: (y 0, k). -/
abbrev lidx (y : S5000x128.Idx) (k : Fin 128) : S5000x128.Idx := fun a => match a with
  | ⟨0, _⟩ => ⟨(y 0).val, (y 0).isLt⟩
  | ⟨1, _⟩ => ⟨k.val, k.isLt⟩
/-- The second operand's: (k, y 1). -/
abbrev ridx (y : S5000x128.Idx) (k : Fin 128) : S128x128.Idx := fun a => match a with
  | ⟨0, _⟩ => ⟨k.val, k.isLt⟩
  | ⟨1, _⟩ => ⟨(y 1).val, (y 1).isLt⟩

/-- The body's payload at an index of the block: the narrowing is the identity at the ideal values and the product
    into the zero accumulator is the plain sum. -/
theorem pay_apply (x0 : Vec Ideal S5000x128 .f32) (x1 : Vec Ideal S128x128 .f32) (y : S5000x128.Idx) :
    k4_pay1 x0 x1 y = ∑ k : Fin 128, x0 (lidx y k) * x1 (ridx y k) := by
  unfold k4_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx y ((contrEquiv1 dot_S5000x128_S128x128_S5000x128_1_0_0_1_n_n 128 rfl rfl).symm k) = lidx y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((contrEquiv1 dot_S5000x128_S128x128_S5000x128_1_0_0_1_n_n 128 rfl rfl).symm k) = ridx y k := funext fun a => Fin.ext (by
    match a with
    | ⟨0, _⟩ => exact (rhs_0 _ _).trans hk
    | ⟨1, _⟩ => exact rhs_1 _ _)
  rw [el, er]
  rfl

/-! ## The whole-array function -/

/-- Row i 0 of A times column i 1 of B, as the exact sum over the contracted axis. -/
abbrev G (A : S50000x128.Idx → Elt Ideal .f32) (B : S128x128.Idx → Elt Ideal .f32) : S50000x128.Idx → Elt Ideal .f32 :=
  fun i => ∑ k : Fin 128, A (ix2 (⟨(i 0).val, idx2_lt0 i⟩ : Fin 50000) k) * B (ix2 k (⟨(i 1).val, idx2_lt1 i⟩ : Fin 128))

theorem hz : (![0, 0] : Fin 2 → Nat) = fun _ => 0 := funext fun a => by fin_cases a <;> rfl

/-- The printed index maps, decided over the grid: the first operand's window and the output's are at block (t, 0),
    the second operand's at block (0, 0). -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

variable (V : (c : Dev nD) → (b : Ref sig .tc) → Buf (Elt Ideal) ((c : Thread nD τ).loc b))

/-- WHAT POINT t WRITES BACK is block t of G of the operand arrays as the region finds them. -/
theorem flushed_eq (c : Dev nD) (t : Fin cfg4.N) :
    (dat4 (F := Ideal) V c).flushed 2 t = ((cfg4.win 2).blk t).view.read (Elt Ideal) (G (V c main_v55) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e00, e01, e10, e11, e20, e21⟩ := idx_facts t
  funext y
  refine (pay_apply (iblk4 V c 0 t) (iblk4 V c 1 t) ((cfg4.win 2).xinj (grid4.coords t) y)).trans ?_
  show _ = G (V c main_v55) (V c main_arg6) (((cfg4.win 2).blk t).view.emb y)
  refine Finset.sum_congr rfl fun k _ => ?_
  have h0 : iblk4 V c 0 t (lidx ((cfg4.win 2).xinj (grid4.coords t) y) k) = V c main_v55 (ix2 (⟨((((cfg4.win 2).blk t).view.emb y) 0).val, idx2_lt0 _⟩ : Fin 50000) k) := by
    show V c main_v55 (((cfg4.win 0).blk t).view.emb (lidx ((cfg4.win 2).xinj (grid4.coords t) y) k)) = _
    refine congrArg (V c main_v55) (funext fun a => Fin.ext ?_)
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 128 + 1 * k.val = k.val; omega
  have h1 : iblk4 V c 1 t (ridx ((cfg4.win 2).xinj (grid4.coords t) y) k) = V c main_arg6 (ix2 k (⟨((((cfg4.win 2).blk t).view.emb y) 1).val, idx2_lt1 _⟩ : Fin 128)) := by
    show V c main_arg6 (((cfg4.win 1).blk t).view.emb (ridx ((cfg4.win 2).xinj (grid4.coords t) y) k)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 128 + 1 * (y 1).val = win4_2.index t (1 : Fin 2) * 128 + 1 * (y 1).val; omega
  rw [h0, h1]

/-- An index of the array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v56).slice (win4_2.rect t)).set ↔ _
  rw [View.set_slice_whole, Rect.mem_set_unit]
  exact Iff.rfl

/-- Every index of the array is in some point's block: row r is in the block of point r / 5000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  obtain ⟨e00, e01, e10, e11, e20, e21⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- THE ARRAY after the ten points: G of the operand arrays. -/
theorem final (c : Dev nD) : (dat4 (F := Ideal) V c).arrAt 2 cfg4.N = G (V c main_v55) (V c main_arg6) :=
  (dat4 (F := Ideal) V c).arrAt_eq_of_cover 2 (G (V c main_v55) (V c main_arg6)) (fun t _ => flushed_eq V c t) cover

/-- Row r of the output array is row r of the first operand times the second operand. -/
theorem value (c : Dev nD) (r : Fin 50000) (j : Fin 128) :
    (dat4 (F := Ideal) V c).arrAt 2 cfg4.N (ix2 r j) = ∑ k : Fin 128, HMul.hMul (α := EReal) (β := EReal) (V c main_v55 (ix2 r k)) (V c main_arg6 (ix2 k j)) :=
  (congrFun (final V c) (ix2 r j)).trans rfl

end Cert.Bridge.Mm4

end
-- ==== Proof.RegFused5.lean ====
import proofs.«418511_j59657095741762_1_alg».proof.Proof.Gen.KernelIdeal.Frame
import Idealize.ShloMosaic.Lib.Pipeline.Value
import Idealize.ShloMosaic.Lib.ValueIdx
import Idealize.ShloMosaic.Lib.ValueLayout

/-! # The fused region's output array, index by index

The region reads four arrays — an aggregate `A` and a feature array `H` (both 50000 × 128), a column `S` (50000 × 1)
and a row `B` (1 × 128) — in row blocks of 5000 and writes, whatever those arrays hold,
`out[r, j] = max (A[r, j] + S[r, 0] * H[r, j] + B[0, j]) 0`. -/

set_option maxRecDepth 16384

noncomputable section

namespace Cert.Bridge.Fused5

open Idealize.ShloMosaic Idealize.ShloMosaic.TcCoe Idealize.SL.Sem Cert.KernelIdeal Cert.KernelIdeal.Gen ValueIdx
open Idealize.ShloMosaic.Pipeline (Dat)

/-! ## The body's value at an index of its block -/

/-- A column `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored block at `(p, q)`: the pointwise operations of the four loaded blocks, the column read at its row and the
    row at its column. -/
theorem pay_apply (x0 x1 : Vec Ideal S5000x128 .f32) (x2 : Vec Ideal S5000x1 .f32) (x3 : Vec Ideal S1x128 .f32)
    (p : Fin 5000) (q : Fin 128) :
    k5_pay1 (F := Ideal) x0 x2 x1 x3 (ix2 p q)
      = max (x0 (ix2 p q) + x2 (ix2 p (0 : Fin 1)) * x1 (ix2 p q) + x3 (ix2 (0 : Fin 1) q)) (Ideal.ofBits .f32 0x00000000#32) := by
  unfold k5_pay1
  simp only [shapeCast_self]
  rw [maximumf_apply, addf_apply, addf_apply, mulf_apply, broadcast_apply, broadcastTo_a1_ab_apply, broadcastTo_1b_ab_apply]
  rfl

/-! ## From blocks to the array -/

variable (V : (c : Dev nD) → (b : Ref sig .tc) → Buf (Elt Ideal) ((c : Thread nD τ).loc b))

theorem zero_offsets : (![0, 0] : Fin 2 → Nat) = fun _ => 0 :=
  funext fun a => match a with | ⟨0, _⟩ => rfl | ⟨1, _⟩ => rfl

/-- The array the region leaves, as one function of the four arrays it reads. -/
abbrev G (A H : S50000x128.Idx → Elt Ideal .f32) (S : S50000x1.Idx → Elt Ideal .f32) (B : S1x128.Idx → Elt Ideal .f32) :
    S50000x128.Idx → Elt Ideal .f32 :=
  fun i => max (A i + S (ix2 (n0 := 50000) (i 0) (0 : Fin 1)) * H i + B (ix2 (0 : Fin 1) (n1 := 128) (i 1))) (Ideal.ofBits .f32 0x00000000#32)

/-- The index maps over the grid: the three row-blocked inputs move with the output's block, which is the point's own;
    the row is read whole. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of `G` of the arrays as the region finds them. -/
theorem flushed_eq (c : Dev nD) (t : Fin cfg5.N) :
    (dat5 (F := Ideal) V c).flushed 4 t
      = ((cfg5.win 4).blk t).view.read (Elt Ideal) (G (V c main_v63) (V c main_v56) (V c main_v65) (V c main_v64)) := by
  show (cfg5.win 4).cut (grid5.coords t) ((dat5 V c).after 4 t) = _
  rw [after5_4]
  unfold out5_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := idx_facts t
  funext y
  obtain ⟨p, q, rfl⟩ : ∃ (p : Fin 5000) (q : Fin 128), y = ix2 p q := ⟨y 0, y 1, eq_ix2 y⟩
  refine (pay_apply (iblk5 V c 0 t) (iblk5 V c 1 t) (iblk5 V c 2 t) (iblk5 V c 3 t) p q).trans ?_
  show _ = G (V c main_v63) (V c main_v56) (V c main_v65) (V c main_v64) (((cfg5.win 4).blk t).view.emb (ix2 p q))
  have h0 : iblk5 V c 0 t (ix2 p q) = V c main_v63 (((cfg5.win 4).blk t).view.emb (ix2 p q)) := by
    show V c main_v63 (((cfg5.win 0).blk t).view.emb (ix2 p q)) = _
    refine congrArg (V c main_v63) (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 128 + 1 * q.val = win5_4.index t (1 : Fin 2) * 128 + 1 * q.val; omega
  have h1 : iblk5 V c 1 t (ix2 p q) = V c main_v56 (((cfg5.win 4).blk t).view.emb (ix2 p q)) := by
    show V c main_v56 (((cfg5.win 1).blk t).view.emb (ix2 p q)) = _
    refine congrArg (V c main_v56) (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 128 + 1 * q.val = win5_4.index t (1 : Fin 2) * 128 + 1 * q.val; omega
  have h2 : iblk5 V c 2 t (ix2 p (0 : Fin 1))
      = V c main_v65 (ix2 (n0 := 50000) ((((cfg5.win 4).blk t).view.emb (ix2 p q)) 0) (0 : Fin 1)) := by
    show V c main_v65 (((cfg5.win 2).blk t).view.emb (ix2 p (0 : Fin 1))) = _
    refine congrArg (V c main_v65) (funext fun a => Fin.ext ?_)
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have h3 : iblk5 V c 3 t (ix2 (0 : Fin 1) q)
      = V c main_v64 (ix2 (0 : Fin 1) (n1 := 128) ((((cfg5.win 4).blk t).view.emb (ix2 p q)) 1)) := by
    show V c main_v64 (((cfg5.win 3).blk t).view.emb (ix2 (0 : Fin 1) q)) = _
    refine congrArg (V c main_v64) (funext fun a => Fin.ext ?_)
    match a with
    | ⟨0, _⟩ => show win5_3.index t (0 : Fin 2) * 1 + 1 * 0 = 0; omega
    | ⟨1, _⟩ => show win5_3.index t (1 : Fin 2) * 128 + 1 * q.val = win5_4.index t (1 : Fin 2) * 128 + 1 * q.val; omega
  rw [h0, h1, h2, h3]

/-- An index of the array is in point `t`'s block iff each coordinate is in the block's range on its axis. -/
theorem mem_blk (t : Fin cfg5.N) (i : S50000x128.Idx) :
    i ∈ ((cfg5.win 4).blk t).view.set
      ↔ ∀ a : Fin 2, win5_4.index t a * S5000x128.size a ≤ (i a).val ∧ (i a).val < win5_4.index t a * S5000x128.size a + S5000x128.size a := by
  show i ∈ ((View.whole main_v66).slice (win5_4.rect t)).set ↔ _
  rw [View.set_slice_whole, Rect.mem_set_unit]
  exact Iff.rfl

/-- Every row block is some point's. -/
theorem idx_onto : ∀ q0 : Fin 10, ∃ t : Fin cfg5.N, win5_4.index t = ![q0.val, 0] :=
  (by decide +kernel : ∀ q0 : Fin 10, ∃ t : Fin grid5.N, win5_4.index t = ![q0.val, 0])

/-- The blocks cover the array: row `r` is in the block of the point `r / 5000`. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The array after the region: `G` of the arrays as the region finds them. -/
theorem final (c : Dev nD) :
    (dat5 (F := Ideal) V c).arrAt 4 cfg5.N = G (V c main_v63) (V c main_v56) (V c main_v65) (V c main_v64) :=
  (dat5 V c).arrAt_eq_of_cover 4 _ (fun t _ => flushed_eq V c t) cover

/-- The region's output at `(r, j)`, whatever the entry contents. -/
theorem value (c : Dev nD) (r : Fin 50000) (j : Fin 128) :
    (dat5 (F := Ideal) V c).arrAt 4 cfg5.N (ix2 r j)
      = max ((by exact V c main_v63 (ix2 r j) : Elt Ideal .f32) + (by exact V c main_v65 (ix2 r (0 : Fin 1)) : Elt Ideal .f32) * (by exact V c main_v56 (ix2 r j) : Elt Ideal .f32)
          + (by exact V c main_v64 (ix2 (0 : Fin 1) j) : Elt Ideal .f32)) (Ideal.ofBits .f32 0x00000000#32) :=
  congrFun (final V c) (ix2 r j)

/-- The same, with the four arrays named: whatever they are known to be, the output is the formula of them. -/
theorem value_of (c : Dev nD) (A H : S50000x128.Idx → Elt Ideal .f32) (S : S50000x1.Idx → Elt Ideal .f32)
    (B : S1x128.Idx → Elt Ideal .f32) (hA : V c main_v63 = A) (hH : V c main_v56 = H) (hS : V c main_v65 = S)
    (hB : V c main_v64 = B) (r : Fin 50000) (j : Fin 128) :
    (dat5 (F := Ideal) V c).arrAt 4 cfg5.N (ix2 r j)
      = max (A (ix2 r j) + S (ix2 r (0 : Fin 1)) * H (ix2 r j) + B (ix2 (0 : Fin 1) j)) (Ideal.ofBits .f32 0x00000000#32) := by
  subst hA hH hS hB
  exact value V c r j

end Cert.Bridge.Fused5

end
-- ==== Proof.Layer3.lean ====
/-
  Layer 3 of the kernel program computes what layer 3 of the reference computes, given that it starts from the
  reference's layer 2.

  Write x1 for the edge list, x6 and x7 for the layer's weight and bias, and p for the previous layer's output, which
  the hypothesis says is the reference's second stage of x0 … x5. The graph quantities of the edge list (source row,
  destination row, edge weights norm, self-loop coefficients slc) were written once, before the first layer, and no
  stretch or region since has touched them: they are still what the first stretch left. The layer's matmul region
  leaves h = p · x6, row by row the exact sum over the 128 features. The stretch after it gathers the rows of h at
  the edges' sources (every source index is in range under the precondition, so the guarded gather is the plain one),
  weighs each by its edge's norm and sums them onto the destinations: agg. The fused region leaves
  max (agg + slc · h + x7) 0 at every node and feature. Each of these is the reference's stage of the same arguments.
-/
import proofs.«418511_j59657095741762_1_alg».proof.Proof.Gen.KernelIdeal.Frame
import proofs.«418511_j59657095741762_1_alg».proof.Proof.Gen.ReferenceIdeal.Read
import proofs.«418511_j59657095741762_1_alg».proof.Proof.Skip
import proofs.«418511_j59657095741762_1_alg».proof.Proof.Levels
import proofs.«418511_j59657095741762_1_alg».proof.Proof.Spec
import proofs.«418511_j59657095741762_1_alg».proof.Proof.Stretch
import proofs.«418511_j59657095741762_1_alg».proof.Proof.Take
import proofs.«418511_j59657095741762_1_alg».proof.Proof.RefLayers
import proofs.«418511_j59657095741762_1_alg».proof.Proof.RegMm4
import proofs.«418511_j59657095741762_1_alg».proof.Proof.RegFused5
import proofs.«418511_j59657095741762_1_alg».proof.Proof.Layer1
import Idealize.ShloMosaic.Lib.ValueIdx
import Idealize.ShloMosaic.Lib.ValueLayout
import Idealize.ShloMosaic.Lib.Pipeline.Value

set_option maxRecDepth 16384

noncomputable section

namespace Cert.Bridge.Layers

open Idealize.ShloMosaic Idealize.ShloMosaic.TcCoe Idealize.SL.Sem Cert.KernelIdeal Cert.KernelIdeal.Gen Cert.KernelIdeal.Facts₀ Cert.KernelIdeal.Facts
open Cert.Bridge Cert.Bridge.Levels Cert.Bridge.Stretch Cert.Bridge.Skip ValueIdx
open Cert.ReferenceIdeal.Read (val_main_v4 val_main_v44 val_main_v55 val_main_v56 val_main_v96 val_main_v107 val_main_v108 val_main_v148 val_main_v159 val_main_v160 val_main_v200 val_main_v211)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## The graph quantities, still as the first stretch left them when the layer's matmul region ends -/

theorem src_at10 : W10 m ρ c (Proc.devRef .tc main_v1) = srcOf x1 :=
  (carried10 m ρ c main_v1 (by decide) (by decide) (by decide) (by decide) (by decide) (by decide) (by decide) (by decide) (by decide)).trans (src_at1 m ρ c)
theorem dst_at10 : W10 m ρ c (Proc.devRef .tc main_v3) = dstOf x1 :=
  (carried10 m ρ c main_v3 (by decide) (by decide) (by decide) (by decide) (by decide) (by decide) (by decide) (by decide) (by decide)).trans (dst_at1 m ρ c)
theorem norm_at10 : W10 m ρ c (Proc.devRef .tc main_v30) = normOf (F := Ideal) x1 :=
  (carried10 m ρ c main_v30 (by decide) (by decide) (by decide) (by decide) (by decide) (by decide) (by decide) (by decide) (by decide)).trans (norm_at1 m ρ c)
theorem slc_at10 : W10 m ρ c (Proc.devRef .tc main_v33) = slcOf (F := Ideal) x1 :=
  (carried10 m ρ c main_v33 (by decide) (by decide) (by decide) (by decide) (by decide) (by decide) (by decide) (by decide) (by decide)).trans (slc_at1 m ρ c)

/-! ## Layer 3 -/

/-- The dense transform: row r of the region's output is row r of the previous layer's output times x6. -/
theorem mm3 (hin : W9 m ρ c (Proc.devRef .tc main_v55) = val_main_v107 (F := Ideal) x0 x1 x2 x3 x4 x5) :
    W10 m ρ c (Proc.devRef .tc main_v56) = val_main_v108 (F := Ideal) x0 x1 x2 x3 x4 x5 x6 := by
  funext i
  obtain ⟨r, j, rfl⟩ : ∃ (r : Fin 50000) (j : Fin 128), i = ix2 r j := ⟨i 0, i 1, eq_ix2 i⟩
  rw [Ref.mm3]
  have h10 : W10 m ρ c (Proc.devRef .tc main_v56) = (dat4 (V9 m ρ) c).arrAt 2 cfg4.N := W10_arr m ρ c 2
  rw [h10, Mm4.value]
  have ein : V9 m ρ c main_v55 = val_main_v107 (F := Ideal) x0 x1 x2 x3 x4 x5 := hin
  have e6 : V9 m ρ c main_arg6 = x6 :=
    (W9_of_ne m ρ c main_arg6 (by decide)).trans ((keep8 m ρ c main_arg6 (by decide) (by decide)).trans
      ((carried6 m ρ c main_arg6 (by decide) (by decide) (by decide) (by decide) (by decide)).trans (keep1 m ρ c main_arg6 (by decide))))
  rw [ein, e6]

/-- The rows of the transform at the edges' sources: every source is in range, so nothing is filled. -/
theorem take3 (hpre : Cert.Pre_KernelIdeal m)
    (hin : W9 m ρ c (Proc.devRef .tc main_v55) = val_main_v107 (F := Ideal) x0 x1 x2 x3 x4 x5) :
    W11 m ρ c (Proc.devRef .tc main_v57)
      = gather128 (F := Ideal) (val_main_v108 (F := Ideal) x0 x1 x2 x3 x4 x5 x6) x1 := by
  have h := h5_take (W10 m ρ c)
  rw [mm3 m ρ c hin, src_at10 m ρ c] at h
  exact h.trans (take128_of_pre m hpre c _)

/-- The aggregation: the weighted rows summed onto the edges' destinations. -/
theorem agg3 (hpre : Cert.Pre_KernelIdeal m)
    (hin : W9 m ρ c (Proc.devRef .tc main_v55) = val_main_v107 (F := Ideal) x0 x1 x2 x3 x4 x5) :
    W12 m ρ c (Proc.devRef .tc main_v63) = val_main_v148 (F := Ideal) x0 x1 x2 x3 x4 x5 x6 := by
  have h := h5_1_agg (W11 m ρ c)
  have e3 : W11 m ρ c (Proc.devRef .tc main_v3) = dstOf x1 :=
    (skip_hostOps5 (W10 m ρ c) main_v3 (by decide)).trans (dst_at10 m ρ c)
  have e30 : W11 m ρ c (Proc.devRef .tc main_v30) = normOf (F := Ideal) x1 :=
    (skip_hostOps5 (W10 m ρ c) main_v30 (by decide)).trans (norm_at10 m ρ c)
  rw [take3 m ρ c hpre hin, e3, e30] at h
  rw [Ref.agg3]
  exact h

/-- The layer's output: max (agg + slc · h + bias) 0 at every node and feature. -/
theorem out3 (hpre : Cert.Pre_KernelIdeal m)
    (hin : W9 m ρ c (Proc.devRef .tc main_v55) = val_main_v107 (F := Ideal) x0 x1 x2 x3 x4 x5) :
    W13 m ρ c (Proc.devRef .tc main_v66) = val_main_v159 (F := Ideal) x0 x1 x2 x3 x4 x5 x6 x7 := by
  funext i
  obtain ⟨r, j, rfl⟩ : ∃ (r : Fin 50000) (j : Fin 128), i = ix2 r j := ⟨i 0, i 1, eq_ix2 i⟩
  rw [Ref.out3]
  have h13 : W13 m ρ c (Proc.devRef .tc main_v66) = (dat5 (V12 m ρ) c).arrAt 4 cfg5.N := W13_arr m ρ c 4
  have hA : V12 m ρ c main_v63 = val_main_v148 (F := Ideal) x0 x1 x2 x3 x4 x5 x6 := agg3 m ρ c hpre hin
  have hH : V12 m ρ c main_v56 = val_main_v108 (F := Ideal) x0 x1 x2 x3 x4 x5 x6 :=
    (keep12 m ρ c main_v56 (by decide) (by decide)).trans (mm3 m ρ c hin)
  have e33 : W11 m ρ c (Proc.devRef .tc main_v33) = slcOf (F := Ideal) x1 :=
    (skip_hostOps5 (W10 m ρ c) main_v33 (by decide)).trans (slc_at10 m ρ c)
  have ea7 : W11 m ρ c (Proc.devRef .tc main_arg7) = x7 :=
    (skip_hostOps5 (W10 m ρ c) main_arg7 (by decide)).trans
      ((carried10 m ρ c main_arg7 (by decide) (by decide) (by decide) (by decide) (by decide) (by decide) (by decide) (by decide) (by decide)).trans (keep1 m ρ c main_arg7 (by decide)))
  have hS : V12 m ρ c main_v65 = shapeCast S50000x1 (slcOf (F := Ideal) x1) Facts₀.shapeCasts_S50000_S50000x1 := by
    have h := h5_1_slc2d (W11 m ρ c)
    rw [e33] at h
    exact h
  have hB : V12 m ρ c main_v64 = shapeCast S1x128 x7 Facts₀.shapeCasts_S128_S1x128 := by
    have h := h5_1_b2d (W11 m ρ c)
    rw [ea7] at h
    exact h
  rw [h13, Fused5.value_of (V12 m ρ) c _ _ _ _ hA hH hS hB r j, colCast_apply, shapeCast_a_1a_apply]

end Cert.Bridge.Layers

end
-- ==== Proof.RegMm6.lean ====
import proofs.«418511_j59657095741762_1_alg».proof.Proof.Gen.KernelIdeal.Frame
import Idealize.ShloMosaic.Lib.Pipeline.Value
import Idealize.ShloMosaic.Lib.ValueIdx
import Idealize.ShloMosaic.PureOps.Ideal.Laws

/-! # A matmul region's output array, as one function of the region's entry contents

The region stages a block of 5000 rows of the first operand and the whole second operand, multiplies them into a
zero accumulator, and writes the 5000 result rows back; its ten grid points cover the 50000 rows. At the ideal
values the narrowing of the operands is the identity and the accumulation is the exact sum over the contracted
axis, so the output array ends holding, at row r and column j, the sum over k of A r k * B k j. -/

set_option maxRecDepth 16384

noncomputable section

namespace Cert.Bridge.Mm6

open Idealize.ShloMosaic Idealize.ShloMosaic.TcCoe Idealize.SL.Sem Cert.KernelIdeal Cert.KernelIdeal.Gen ValueIdx
open Idealize.ShloMosaic.Pipeline (Dat)

/-! ## The payload at an index: the exact sum over the contracted axis -/

theorem lhs_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The first operand's index at output index y and contraction coordinate k: (y 0, k). -/
abbrev lidx (y : S5000x16.Idx) (k : Fin 128) : S5000x128.Idx := fun a => match a with
  | ⟨0, _⟩ => ⟨(y 0).val, (y 0).isLt⟩
  | ⟨1, _⟩ => ⟨k.val, k.isLt⟩
/-- The second operand's: (k, y 1). -/
abbrev ridx (y : S5000x16.Idx) (k : Fin 128) : S128x16.Idx := fun a => match a with
  | ⟨0, _⟩ => ⟨k.val, k.isLt⟩
  | ⟨1, _⟩ => ⟨(y 1).val, (y 1).isLt⟩

/-- The body's payload at an index of the block: the narrowing is the identity at the ideal values and the product
    into the zero accumulator is the plain sum. -/
theorem pay_apply (x0 : Vec Ideal S5000x128 .f32) (x1 : Vec Ideal S128x16 .f32) (y : S5000x16.Idx) :
    k6_pay1 x0 x1 y = ∑ k : Fin 128, x0 (lidx y k) * x1 (ridx y k) := by
  unfold k6_pay1
  simp only [matmul, shapeCast_self]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx y ((contrEquiv1 dot_S5000x128_S128x16_S5000x16_1_0_0_1_n_n 128 rfl rfl).symm k) = lidx y k := funext fun a => Fin.ext (by
    match a with
    | ⟨0, _⟩ => exact lhs_0 _ _
    | ⟨1, _⟩ => exact (lhs_1 _ _).trans hk)
  have er : dot_S5000x128_S128x16_S5000x16_1_0_0_1_n_n.rhsIdx y ((contrEquiv1 dot_S5000x128_S128x16_S5000x16_1_0_0_1_n_n 128 rfl rfl).symm k) = ridx y k := funext fun a => Fin.ext (by
    match a with
    | ⟨0, _⟩ => exact (rhs_0 _ _).trans hk
    | ⟨1, _⟩ => exact rhs_1 _ _)
  rw [el, er]
  rfl

/-! ## The whole-array function -/

/-- Row i 0 of A times column i 1 of B, as the exact sum over the contracted axis. -/
abbrev G (A : S50000x128.Idx → Elt Ideal .f32) (B : S128x16.Idx → Elt Ideal .f32) : S50000x16.Idx → Elt Ideal .f32 :=
  fun i => ∑ k : Fin 128, A (ix2 (⟨(i 0).val, idx2_lt0 i⟩ : Fin 50000) k) * B (ix2 k (⟨(i 1).val, idx2_lt1 i⟩ : Fin 16))

theorem hz : (![0, 0] : Fin 2 → Nat) = fun _ => 0 := funext fun a => by fin_cases a <;> rfl

/-- The printed index maps, decided over the grid: the first operand's window and the output's are at block (t, 0),
    the second operand's at block (0, 0). -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

variable (V : (c : Dev nD) → (b : Ref sig .tc) → Buf (Elt Ideal) ((c : Thread nD τ).loc b))

/-- WHAT POINT t WRITES BACK is block t of G of the operand arrays as the region finds them. -/
theorem flushed_eq (c : Dev nD) (t : Fin cfg6.N) :
    (dat6 (F := Ideal) V c).flushed 2 t = ((cfg6.win 2).blk t).view.read (Elt Ideal) (G (V c main_v66) (V c main_arg8)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x16) hz]
  obtain ⟨e00, e01, e10, e11, e20, e21⟩ := idx_facts t
  funext y
  refine (pay_apply (iblk6 V c 0 t) (iblk6 V c 1 t) ((cfg6.win 2).xinj (grid6.coords t) y)).trans ?_
  show _ = G (V c main_v66) (V c main_arg8) (((cfg6.win 2).blk t).view.emb y)
  refine Finset.sum_congr rfl fun k _ => ?_
  have h0 : iblk6 V c 0 t (lidx ((cfg6.win 2).xinj (grid6.coords t) y) k) = V c main_v66 (ix2 (⟨((((cfg6.win 2).blk t).view.emb y) 0).val, idx2_lt0 _⟩ : Fin 50000) k) := by
    show V c main_v66 (((cfg6.win 0).blk t).view.emb (lidx ((cfg6.win 2).xinj (grid6.coords t) y) k)) = _
    refine congrArg (V c main_v66) (funext fun a => Fin.ext ?_)
    match a with
    | ⟨0, _⟩ => show win6_0.index t (0 : Fin 2) * 5000 + 1 * (y 0).val = win6_2.index t (0 : Fin 2) * 5000 + 1 * (y 0).val; omega
    | ⟨1, _⟩ => show win6_0.index t (1 : Fin 2) * 128 + 1 * k.val = k.val; omega
  have h1 : iblk6 V c 1 t (ridx ((cfg6.win 2).xinj (grid6.coords t) y) k) = V c main_arg8 (ix2 k (⟨((((cfg6.win 2).blk t).view.emb y) 1).val, idx2_lt1 _⟩ : Fin 16)) := by
    show V c main_arg8 (((cfg6.win 1).blk t).view.emb (ridx ((cfg6.win 2).xinj (grid6.coords t) y) k)) = _
    refine congrArg (V c main_arg8) (funext fun a => Fin.ext ?_)
    match a with
    | ⟨0, _⟩ => show win6_1.index t (0 : Fin 2) * 128 + 1 * k.val = k.val; omega
    | ⟨1, _⟩ => show win6_1.index t (1 : Fin 2) * 16 + 1 * (y 1).val = win6_2.index t (1 : Fin 2) * 16 + 1 * (y 1).val; omega
  rw [h0, h1]

/-- An index of the array is in point t's block iff each coordinate is in the block's range on its axis. -/
theorem mem_blk (t : Fin cfg6.N) (i : S50000x16.Idx) :
    i ∈ ((cfg6.win 2).blk t).view.set ↔ ∀ a : Fin 2, win6_2.index t a * S5000x16.size a ≤ (i a).val ∧ (i a).val < win6_2.index t a * S5000x16.size a + S5000x16.size a := by
  show i ∈ ((View.whole main_v67).slice (win6_2.rect t)).set ↔ _
  rw [View.set_slice_whole, Rect.mem_set_unit]
  exact Iff.rfl

/-- Every index of the array is in some point's block: row r is in the block of point r / 5000. -/
theorem cover (i : S50000x16.Idx) : ∃ t : Fin cfg6.N, (cfg6.win 2).flush t = true ∧ i ∈ ((cfg6.win 2).blk t).view.set := by
  have hi0 : (i 0).val < 50000 := (i 0).isLt
  have hi1 : (i 1).val < 16 := (i 1).isLt
  have hN : grid6.N = 10 := N_6
  let t : Fin cfg6.N := ⟨(i 0).val / 5000, by show (i 0).val / 5000 < grid6.N; omega⟩
  obtain ⟨e00, e01, e10, e11, e20, e21⟩ := idx_facts t
  have ht : t.val = (i 0).val / 5000 := rfl
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 16 ≤ (i 1).val ∧ (i 1).val < win6_2.index t (1 : Fin 2) * 16 + 16; omega

/-- THE ARRAY after the ten points: G of the operand arrays. -/
theorem final (c : Dev nD) : (dat6 (F := Ideal) V c).arrAt 2 cfg6.N = G (V c main_v66) (V c main_arg8) :=
  (dat6 (F := Ideal) V c).arrAt_eq_of_cover 2 (G (V c main_v66) (V c main_arg8)) (fun t _ => flushed_eq V c t) cover

/-- Row r of the output array is row r of the first operand times the second operand. -/
theorem value (c : Dev nD) (r : Fin 50000) (j : Fin 16) :
    (dat6 (F := Ideal) V c).arrAt 2 cfg6.N (ix2 r j) = ∑ k : Fin 128, HMul.hMul (α := EReal) (β := EReal) (V c main_v66 (ix2 r k)) (V c main_arg8 (ix2 k j)) :=
  (congrFun (final V c) (ix2 r j)).trans rfl

end Cert.Bridge.Mm6

end
-- ==== Proof.RegFused7.lean ====
import proofs.«418511_j59657095741762_1_alg».proof.Proof.Gen.KernelIdeal.Frame
import Idealize.ShloMosaic.Lib.Pipeline.Value
import Idealize.ShloMosaic.Lib.ValueIdx
import Idealize.ShloMosaic.Lib.ValueLayout

/-! # The fused region's output array, index by index

The region reads four arrays — an aggregate `A` and a feature array `H` (both 50000 × 16), a column `S` (50000 × 1)
and a row `B` (1 × 16) — in row blocks of 5000 and writes, whatever those arrays hold,
`out[r, j] = tanh (A[r, j] + S[r, 0] * H[r, j] + B[0, j])`. -/

set_option maxRecDepth 16384

noncomputable section

namespace Cert.Bridge.Fused7

open Idealize.ShloMosaic Idealize.ShloMosaic.TcCoe Idealize.SL.Sem Cert.KernelIdeal Cert.KernelIdeal.Gen ValueIdx
open Idealize.ShloMosaic.Pipeline (Dat)

/-! ## The body's value at an index of its block -/

/-- A column `[a, 1]` broadcast to `[a, b]` reads, at `(p, q)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A hyperbolic tangent of a vector, read at an index, is that of the element there. -/
theorem tanh_apply {s : Shape} {φ : FTy} (a : FVec Ideal s φ) (i : s.Idx) : tanh a i = Ideal.tanh (a i) := rfl

/-- The stored block at `(p, q)`: the pointwise operations of the four loaded blocks, the column read at its row and the
    row at its column. -/
theorem pay_apply (x0 x1 : Vec Ideal S5000x16 .f32) (x2 : Vec Ideal S5000x1 .f32) (x3 : Vec Ideal S1x16 .f32)
    (p : Fin 5000) (q : Fin 16) :
    k7_pay1 (F := Ideal) x0 x2 x1 x3 (ix2 p q)
      = Ideal.tanh (x0 (ix2 p q) + x2 (ix2 p (0 : Fin 1)) * x1 (ix2 p q) + x3 (ix2 (0 : Fin 1) q)) := by
  unfold k7_pay1
  simp only [shapeCast_self]
  rw [tanh_apply, addf_apply, addf_apply, mulf_apply, broadcastTo_a1_ab_apply, broadcastTo_1b_ab_apply]

/-! ## From blocks to the array -/

variable (V : (c : Dev nD) → (b : Ref sig .tc) → Buf (Elt Ideal) ((c : Thread nD τ).loc b))

theorem zero_offsets : (![0, 0] : Fin 2 → Nat) = fun _ => 0 :=
  funext fun a => match a with | ⟨0, _⟩ => rfl | ⟨1, _⟩ => rfl

/-- The array the region leaves, as one function of the four arrays it reads. -/
abbrev G (A H : S50000x16.Idx → Elt Ideal .f32) (S : S50000x1.Idx → Elt Ideal .f32) (B : S1x16.Idx → Elt Ideal .f32) :
    S50000x16.Idx → Elt Ideal .f32 :=
  fun i => Ideal.tanh (A i + S (ix2 (n0 := 50000) (i 0) (0 : Fin 1)) * H i + B (ix2 (0 : Fin 1) (n1 := 16) (i 1)))

/-- The index maps over the grid: the three row-blocked inputs move with the output's block, which is the point's own;
    the row is read whole. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of `G` of the arrays as the region finds them. -/
theorem flushed_eq (c : Dev nD) (t : Fin cfg7.N) :
    (dat7 (F := Ideal) V c).flushed 4 t
      = ((cfg7.win 4).blk t).view.read (Elt Ideal) (G (V c main_v74) (V c main_v67) (V c main_v76) (V c main_v75)) := by
  show (cfg7.win 4).cut (grid7.coords t) ((dat7 V c).after 4 t) = _
  rw [after7_4]
  unfold out7_4
  rw [View.canon_unit_zero zero_offsets]
  simp only [View.ld_unit_zero (S := S5000x16) zero_offsets, View.ld_unit_zero (S := S5000x1) zero_offsets,
    View.ld_unit_zero (S := S1x16) zero_offsets]
  obtain ⟨e00, e01, e10, e11, e20, e21, e30, e31, e40, e41⟩ := idx_facts t
  funext y
  obtain ⟨p, q, rfl⟩ : ∃ (p : Fin 5000) (q : Fin 16), y = ix2 p q := ⟨y 0, y 1, eq_ix2 y⟩
  refine (pay_apply (iblk7 V c 0 t) (iblk7 V c 1 t) (iblk7 V c 2 t) (iblk7 V c 3 t) p q).trans ?_
  show _ = G (V c main_v74) (V c main_v67) (V c main_v76) (V c main_v75) (((cfg7.win 4).blk t).view.emb (ix2 p q))
  have h0 : iblk7 V c 0 t (ix2 p q) = V c main_v74 (((cfg7.win 4).blk t).view.emb (ix2 p q)) := by
    show V c main_v74 (((cfg7.win 0).blk t).view.emb (ix2 p q)) = _
    refine congrArg (V c main_v74) (funext fun a => Fin.ext ?_)
    match a with
    | ⟨0, _⟩ => show win7_0.index t (0 : Fin 2) * 5000 + 1 * p.val = win7_4.index t (0 : Fin 2) * 5000 + 1 * p.val; omega
    | ⟨1, _⟩ => show win7_0.index t (1 : Fin 2) * 16 + 1 * q.val = win7_4.index t (1 : Fin 2) * 16 + 1 * q.val; omega
  have h1 : iblk7 V c 1 t (ix2 p q) = V c main_v67 (((cfg7.win 4).blk t).view.emb (ix2 p q)) := by
    show V c main_v67 (((cfg7.win 1).blk t).view.emb (ix2 p q)) = _
    refine congrArg (V c main_v67) (funext fun a => Fin.ext ?_)
    match a with
    | ⟨0, _⟩ => show win7_1.index t (0 : Fin 2) * 5000 + 1 * p.val = win7_4.index t (0 : Fin 2) * 5000 + 1 * p.val; omega
    | ⟨1, _⟩ => show win7_1.index t (1 : Fin 2) * 16 + 1 * q.val = win7_4.index t (1 : Fin 2) * 16 + 1 * q.val; omega
  have h2 : iblk7 V c 2 t (ix2 p (0 : Fin 1))
      = V c main_v76 (ix2 (n0 := 50000) ((((cfg7.win 4).blk t).view.emb (ix2 p q)) 0) (0 : Fin 1)) := by
    show V c main_v76 (((cfg7.win 2).blk t).view.emb (ix2 p (0 : Fin 1))) = _
    refine congrArg (V c main_v76) (funext fun a => Fin.ext ?_)
    match a with
    | ⟨0, _⟩ => show win7_2.index t (0 : Fin 2) * 5000 + 1 * p.val = win7_4.index t (0 : Fin 2) * 5000 + 1 * p.val; omega
    | ⟨1, _⟩ => show win7_2.index t (1 : Fin 2) * 1 + 1 * 0 = 0; omega
  have h3 : iblk7 V c 3 t (ix2 (0 : Fin 1) q)
      = V c main_v75 (ix2 (0 : Fin 1) (n1 := 16) ((((cfg7.win 4).blk t).view.emb (ix2 p q)) 1)) := by
    show V c main_v75 (((cfg7.win 3).blk t).view.emb (ix2 (0 : Fin 1) q)) = _
    refine congrArg (V c main_v75) (funext fun a => Fin.ext ?_)
    match a with
    | ⟨0, _⟩ => show win7_3.index t (0 : Fin 2) * 1 + 1 * 0 = 0; omega
    | ⟨1, _⟩ => show win7_3.index t (1 : Fin 2) * 16 + 1 * q.val = win7_4.index t (1 : Fin 2) * 16 + 1 * q.val; omega
  rw [h0, h1, h2, h3]

/-- An index of the array is in point `t`'s block iff each coordinate is in the block's range on its axis. -/
theorem mem_blk (t : Fin cfg7.N) (i : S50000x16.Idx) :
    i ∈ ((cfg7.win 4).blk t).view.set
      ↔ ∀ a : Fin 2, win7_4.index t a * S5000x16.size a ≤ (i a).val ∧ (i a).val < win7_4.index t a * S5000x16.size a + S5000x16.size a := by
  show i ∈ ((View.whole main_v77).slice (win7_4.rect t)).set ↔ _
  rw [View.set_slice_whole, Rect.mem_set_unit]
  exact Iff.rfl

/-- Every row block is some point's. -/
theorem idx_onto : ∀ q0 : Fin 10, ∃ t : Fin cfg7.N, win7_4.index t = ![q0.val, 0] :=
  (by decide +kernel : ∀ q0 : Fin 10, ∃ t : Fin grid7.N, win7_4.index t = ![q0.val, 0])

/-- The blocks cover the array: row `r` is in the block of the point `r / 5000`. -/
theorem cover (i : S50000x16.Idx) :
    ∃ t : Fin cfg7.N, (cfg7.win 4).flush t = true ∧ i ∈ ((cfg7.win 4).blk t).view.set := by
  have hi0 : (i 0).val < 50000 := (i 0).isLt
  have hi1 : (i 1).val < 16 := (i 1).isLt
  obtain ⟨t, ht⟩ := idx_onto ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 16 ≤ (i 1).val ∧ (i 1).val < win7_4.index t (1 : Fin 2) * 16 + 16; omega

/-- The array after the region: `G` of the arrays as the region finds them. -/
theorem final (c : Dev nD) :
    (dat7 (F := Ideal) V c).arrAt 4 cfg7.N = G (V c main_v74) (V c main_v67) (V c main_v76) (V c main_v75) :=
  (dat7 V c).arrAt_eq_of_cover 4 _ (fun t _ => flushed_eq V c t) cover

/-- The region's output at `(r, j)`, whatever the entry contents. -/
theorem value (c : Dev nD) (r : Fin 50000) (j : Fin 16) :
    (dat7 (F := Ideal) V c).arrAt 4 cfg7.N (ix2 r j)
      = Ideal.tanh ((by exact V c main_v74 (ix2 r j) : Elt Ideal .f32) + (by exact V c main_v76 (ix2 r (0 : Fin 1)) : Elt Ideal .f32) * (by exact V c main_v67 (ix2 r j) : Elt Ideal .f32)
          + (by exact V c main_v75 (ix2 (0 : Fin 1) j) : Elt Ideal .f32)) :=
  congrFun (final V c) (ix2 r j)

/-- The same, with the four arrays named: whatever they are known to be, the output is the formula of them. -/
theorem value_of (c : Dev nD) (A H : S50000x16.Idx → Elt Ideal .f32) (S : S50000x1.Idx → Elt Ideal .f32)
    (B : S1x16.Idx → Elt Ideal .f32) (hA : V c main_v74 = A) (hH : V c main_v67 = H) (hS : V c main_v76 = S)
    (hB : V c main_v75 = B) (r : Fin 50000) (j : Fin 16) :
    (dat7 (F := Ideal) V c).arrAt 4 cfg7.N (ix2 r j)
      = Ideal.tanh (A (ix2 r j) + S (ix2 r (0 : Fin 1)) * H (ix2 r j) + B (ix2 (0 : Fin 1) j)) := by
  subst hA hH hS hB
  exact value V c r j

end Cert.Bridge.Fused7

end
-- ==== Proof.Layer4.lean ====
/-
  Layer 4 of the kernel program computes what layer 4 of the reference computes, given the previous layer's output.

  Write `x1` for the edge list, `x8`, `x9` for the layer's weight (128 × 16) and bias (16), and `y` for the previous
  layer's output (50000 × 128), which the hypothesis says the kernel program holds where the reference has its stage of
  the same arguments. The layer's first region leaves `h = y · x8`, a sum over the 128 features for each of the 16
  classes, exact at the extended reals. The stretch after it gathers the rows of `h` at the edges' sources — every
  source index is in range under the precondition, so the guarded gather is the plain one —, and the next weighs each
  gathered row by its edge's weight and sums the rows onto the edges' destinations: `agg`. The graph quantities it reads
  (source row, destination row, edge weights, self-loop coefficients `slc`) were left by the program's first stretch and
  nothing since has written them. The layer's second region leaves `tanh (agg + slc · h + x9)` at every node and class:
  the self-loop coefficient enters as a column read at the node, the bias as a row read at the class. Each of these
  is the reference's stage of the same arguments, read off its run.
-/
import proofs.«418511_j59657095741762_1_alg».proof.Proof.Gen.KernelIdeal.Frame
import proofs.«418511_j59657095741762_1_alg».proof.Proof.Gen.ReferenceIdeal.Read
import proofs.«418511_j59657095741762_1_alg».proof.Proof.Skip
import proofs.«418511_j59657095741762_1_alg».proof.Proof.Levels
import proofs.«418511_j59657095741762_1_alg».proof.Proof.Spec
import proofs.«418511_j59657095741762_1_alg».proof.Proof.Stretch
import proofs.«418511_j59657095741762_1_alg».proof.Proof.Take
import proofs.«418511_j59657095741762_1_alg».proof.Proof.RefLayers
import proofs.«418511_j59657095741762_1_alg».proof.Proof.RegMm6
import proofs.«418511_j59657095741762_1_alg».proof.Proof.RegFused7
import proofs.«418511_j59657095741762_1_alg».proof.Proof.Layer1
import Idealize.ShloMosaic.Lib.ValueIdx
import Idealize.ShloMosaic.Lib.ValueLayout
import Idealize.ShloMosaic.Lib.Pipeline.Value

set_option maxRecDepth 16384

noncomputable section

namespace Cert.Bridge.Layers

open Idealize.ShloMosaic Idealize.ShloMosaic.TcCoe Idealize.SL.Sem Cert.KernelIdeal Cert.KernelIdeal.Gen Cert.KernelIdeal.Facts₀ Cert.KernelIdeal.Facts
open Cert.Bridge Cert.Bridge.Levels Cert.Bridge.Stretch Cert.Bridge.Skip ValueIdx
open Cert.ReferenceIdeal.Read (val_main_v4 val_main_v44 val_main_v55 val_main_v56 val_main_v96 val_main_v107 val_main_v108 val_main_v148 val_main_v159 val_main_v160 val_main_v200 val_main_v211)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)

/-! ## Layer 4 -/

/-- The dense transform: row `r` of the region's output is row `r` of the previous layer's output times `x8`. -/
theorem mm4 (hin : W13 m ρ c (Proc.devRef .tc main_v66) = val_main_v159 (F := Ideal) x0 x1 x2 x3 x4 x5 x6 x7) :
    W14 m ρ c (Proc.devRef .tc main_v67) = val_main_v160 (F := Ideal) x0 x1 x2 x3 x4 x5 x6 x7 x8 := by
  funext i
  obtain ⟨r, j, rfl⟩ : ∃ (r : Fin 50000) (j : Fin 16), i = ix2 r j := ⟨i 0, i 1, eq_ix2 i⟩
  rw [Ref.mm4]
  have h14 : W14 m ρ c (Proc.devRef .tc main_v67) = (dat6 (V13 m ρ) c).arrAt 2 cfg6.N := W14_arr m ρ c 2
  rw [h14, Mm6.value]
  have ein : V13 m ρ c main_v66 = val_main_v159 (F := Ideal) x0 x1 x2 x3 x4 x5 x6 x7 := hin
  have e8 : V13 m ρ c main_arg8 = x8 :=
    (W13_of_ne m ρ c main_arg8 (by decide)).trans ((keep12 m ρ c main_arg8 (by decide) (by decide)).trans
      ((carried10 m ρ c main_arg8 (by decide) (by decide) (by decide) (by decide) (by decide) (by decide) (by decide) (by decide) (by decide)).trans
        (keep1 m ρ c main_arg8 (by decide))))
  rw [ein, e8]

/-- The rows of the transform at the edges' sources: every source is in range, so nothing is filled. -/
theorem take4 (hpre : Cert.Pre_KernelIdeal m)
    (hin : W13 m ρ c (Proc.devRef .tc main_v66) = val_main_v159 (F := Ideal) x0 x1 x2 x3 x4 x5 x6 x7) :
    W15 m ρ c (Proc.devRef .tc main_v68) = gather16 (F := Ideal) (val_main_v160 (F := Ideal) x0 x1 x2 x3 x4 x5 x6 x7 x8) x1 := by
  have h := h7_take (W14 m ρ c)
  have e1 : W14 m ρ c (Proc.devRef .tc main_v1) = srcOf x1 :=
    (carried14 m ρ c main_v1 (by decide) (by decide) (by decide) (by decide) (by decide) (by decide) (by decide) (by decide) (by decide) (by decide) (by decide) (by decide) (by decide)).trans (src_at1 m ρ c)
  rw [mm4 m ρ c hin, e1] at h
  exact h.trans (take16_of_pre m hpre c _)

/-- The aggregation: the weighted rows summed onto the edges' destinations. -/
theorem agg4 (hpre : Cert.Pre_KernelIdeal m)
    (hin : W13 m ρ c (Proc.devRef .tc main_v66) = val_main_v159 (F := Ideal) x0 x1 x2 x3 x4 x5 x6 x7) :
    W16 m ρ c (Proc.devRef .tc main_v74) = val_main_v200 (F := Ideal) x0 x1 x2 x3 x4 x5 x6 x7 x8 := by
  have h := h7_1_agg (W15 m ρ c)
  have e3 : W15 m ρ c (Proc.devRef .tc main_v3) = dstOf x1 :=
    (skip_hostOps7 (W14 m ρ c) main_v3 (by decide)).trans
      ((carried14 m ρ c main_v3 (by decide) (by decide) (by decide) (by decide) (by decide) (by decide) (by decide) (by decide) (by decide) (by decide) (by decide) (by decide) (by decide)).trans (dst_at1 m ρ c))
  have e30 : W15 m ρ c (Proc.devRef .tc main_v30) = normOf (F := Ideal) x1 :=
    (skip_hostOps7 (W14 m ρ c) main_v30 (by decide)).trans
      ((carried14 m ρ c main_v30 (by decide) (by decide) (by decide) (by decide) (by decide) (by decide) (by decide) (by decide) (by decide) (by decide) (by decide) (by decide) (by decide)).trans (norm_at1 m ρ c))
  rw [take4 m ρ c hpre hin, e3, e30] at h
  rw [Ref.agg4]
  exact h

/-- The layer's output: `tanh (agg + slc · h + bias)` at every node and class. -/
theorem out4 (hpre : Cert.Pre_KernelIdeal m)
    (hin : W13 m ρ c (Proc.devRef .tc main_v66) = val_main_v159 (F := Ideal) x0 x1 x2 x3 x4 x5 x6 x7) :
    W17 m ρ c (Proc.devRef .tc main_v77) = val_main_v211 (F := Ideal) x0 x1 x2 x3 x4 x5 x6 x7 x8 x9 := by
  funext i
  obtain ⟨r, j, rfl⟩ : ∃ (r : Fin 50000) (j : Fin 16), i = ix2 r j := ⟨i 0, i 1, eq_ix2 i⟩
  rw [Ref.out4]
  have h17 : W17 m ρ c (Proc.devRef .tc main_v77) = (dat7 (V16 m ρ) c).arrAt 4 cfg7.N := W17_arr m ρ c 4
  have hA : V16 m ρ c main_v74 = val_main_v200 (F := Ideal) x0 x1 x2 x3 x4 x5 x6 x7 x8 := agg4 m ρ c hpre hin
  have hH : V16 m ρ c main_v67 = val_main_v160 (F := Ideal) x0 x1 x2 x3 x4 x5 x6 x7 x8 :=
    (keep16 m ρ c main_v67 (by decide) (by decide)).trans (mm4 m ρ c hin)
  have e33 : W15 m ρ c (Proc.devRef .tc main_v33) = slcOf (F := Ideal) x1 :=
    (skip_hostOps7 (W14 m ρ c) main_v33 (by decide)).trans
      ((carried14 m ρ c main_v33 (by decide) (by decide) (by decide) (by decide) (by decide) (by decide) (by decide) (by decide) (by decide) (by decide) (by decide) (by decide) (by decide)).trans (slc_at1 m ρ c))
  have ea9 : W15 m ρ c (Proc.devRef .tc main_arg9) = x9 :=
    (skip_hostOps7 (W14 m ρ c) main_arg9 (by decide)).trans
      ((carried14 m ρ c main_arg9 (by decide) (by decide) (by decide) (by decide) (by decide) (by decide) (by decide) (by decide) (by decide) (by decide) (by decide) (by decide) (by decide)).trans (keep1 m ρ c main_arg9 (by decide)))
  have hS : V16 m ρ c main_v76 = shapeCast S50000x1 (slcOf (F := Ideal) x1) Facts₀.shapeCasts_S50000_S50000x1 := by
    have h := h7_1_slc2d (W15 m ρ c)
    rw [e33] at h
    exact h
  have hB : V16 m ρ c main_v75 = shapeCast S1x16 x9 Facts₀.shapeCasts_S16_S1x16 := by
    have h := h7_1_b2d (W15 m ρ c)
    rw [ea9] at h
    exact h
  rw [h17, Fused7.value_of (V16 m ρ) c _ _ _ _ hA hH hS hB r j, colCast_apply, shapeCast_a_1a_apply]

end Cert.Bridge.Layers

end
-- ==== Proof.lean ====
/-
  The certificate of a four-layer graph convolution network (50000 nodes, 800000 edges; three hidden layers of 128
  features with relu, 16 output classes with tanh) written as eight tiled kernels among host operations, against its
  plain array reference, over the extended reals.

  Each layer is `act (D^{-1/2} (A + 2I) D^{-1/2} (h W) + b)`: a dense transform `h W`, the rows of it gathered at the
  edges' sources, weighted by `dinv src · dinv dst` and summed onto the destinations, the self-loop term
  `2 · dinv² · (h W)`, the bias and the activation. The kernel program computes the degree-derived quantities once and
  the reference once per layer (the same functions of the edge list); the kernel's dense transform is a tiled matrix
  product whose change of float format is the identity over the extended reals, so both are the same sum over the
  128 input features; the fused kernel adds the three terms in the reference's order. The one place the programs differ
  is the gather: the kernel's fills a row with a not-a-number pattern where the wrapped source index is outside
  `0 … 49999`, the reference's reads the clamped row. Under the precondition (every float input finite — not used —
  and every source index in `0 … 49999`, the range of the array it indexes) no row is filled, and the two programs
  compute one function: the reference's last stage of the ten arguments.

  The frames of the two kernel programs are the generated frame certificates; the reference's is its generated run
  with the result dropped. The idealization ledger is empty.
-/
import proofs.«418511_j59657095741762_1_alg».proof.Defs
import proofs.«418511_j59657095741762_1_alg».proof.Proof.Gen.Kernel
import proofs.«418511_j59657095741762_1_alg».proof.Proof.Gen.Kernel.Skeleton
import proofs.«418511_j59657095741762_1_alg».proof.Proof.Gen.Kernel.Launch
import proofs.«418511_j59657095741762_1_alg».proof.Proof.Gen.Kernel.Points
import proofs.«418511_j59657095741762_1_alg».proof.Proof.Gen.Kernel.Frame
import proofs.«418511_j59657095741762_1_alg».proof.Proof.Gen.KernelIdeal
import proofs.«418511_j59657095741762_1_alg».proof.Proof.Gen.KernelIdeal.Skeleton
import proofs.«418511_j59657095741762_1_alg».proof.Proof.Gen.KernelIdeal.Launch
import proofs.«418511_j59657095741762_1_alg».proof.Proof.Gen.KernelIdeal.Points
import proofs.«418511_j59657095741762_1_alg».proof.Proof.Gen.KernelIdeal.Frame
import proofs.«418511_j59657095741762_1_alg».proof.Proof.Gen.ReferenceIdeal
import proofs.«418511_j59657095741762_1_alg».proof.Proof.Gen.Pre_finite_inputs
import proofs.«418511_j59657095741762_1_alg».proof.Proof.Gen.ReferenceIdeal.Run
import proofs.«418511_j59657095741762_1_alg».proof.Proof.Gen.ReferenceIdeal.Read
import proofs.«418511_j59657095741762_1_alg».proof.Proof.KRun
import proofs.«418511_j59657095741762_1_alg».proof.Proof.Layer1
import proofs.«418511_j59657095741762_1_alg».proof.Proof.Layer2
import proofs.«418511_j59657095741762_1_alg».proof.Proof.Layer3
import proofs.«418511_j59657095741762_1_alg».proof.Proof.Layer4
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- What the kernel program's result array ends holding: through the four layers, the reference's last stage of the
    arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hpre : Cert.Pre_KernelIdeal m) :
    Cert.KernelIdeal.Gen.W17 m ρ c (Proc.devRef .tc Cert.KernelIdeal.main_v77)
      = Cert.ReferenceIdeal.Read.val_main_v211 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  Cert.Bridge.Layers.out4 m ρ c hpre (Cert.Bridge.Layers.out3 m ρ c hpre (Cert.Bridge.Layers.out2 m ρ c hpre
    (Cert.Bridge.Layers.out1 m ρ c hpre)))

/-- From memories that agree on the arguments both programs end with the same result array. -/
theorem algebraic : Cert.algebraic_KernelIdeal_ReferenceIdeal := by
  intro m ρ m' ρ' hpre hagree
  refine ⟨fun c => Cert.ReferenceIdeal.Read.val_main_v211 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (kernel_value m ρ c hpre), (h c).2⟩)
      (Cert.Bridge.KRun.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v211_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
